-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S4000000 : Shape := ⟨1, ![4000000]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x7 .f32) (main_arg1 : IVec S4000000 32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  let main_c_0 : IVec S_ 32 := constantI S_ 32 0#32
  let main_v4 : IVec S4000000 32 := broadcastInDim S4000000 ![] bcast_S_S4000000 main_c_0
  let main_v5 : IVec S4000000 1 := cmpi .sge main_arg1 main_v4
  let main_c_1 : IVec S_ 1 := constantI S_ 1 1#1
  let main_v6 : IVec S_ 1 := (fun x v => Host.reduce IntOp.andi x v reducesTo_S4000000_S_d0 h_S_) main_v5 main_c_1
  let main_v7 : IVec S_ 1 := andi main_v3 main_v6
  let main_c_2 : IVec S_ 32 := constantI S_ 32 7#32
  let main_v8 : IVec S4000000 32 := broadcastInDim S4000000 ![] bcast_S_S4000000 main_c_2
  let main_v9 : IVec S4000000 1 := cmpi .slt main_arg1 main_v8
  let main_c_3 : IVec S_ 1 := constantI S_ 1 1#1
  let main_v10 : IVec S_ 1 := (fun x v => Host.reduce IntOp.andi x v reducesTo_S4000000_S_d0 h_S_) main_v9 main_c_3
  let main_v11 : IVec S_ 1 := andi main_v7 main_v10
  main_v11
-- ==== Kernel.lean ====
abbrev S4000000x7 : Shape := ⟨2, ![4000000, 7]⟩
abbrev S4000000 : Shape := ⟨1, ![4000000]⟩
abbrev S7x4000000 : Shape := ⟨2, ![7, 4000000]⟩
abbrev S1x4000000 : Shape := ⟨2, ![1, 4000000]⟩
abbrev S16x128 : Shape := ⟨2, ![16, 128]⟩
abbrev S7x80000 : Shape := ⟨2, ![7, 80000]⟩
abbrev S1x80000 : Shape := ⟨2, ![1, 80000]⟩
abbrev S8x128 : Shape := ⟨2, ![8, 128]⟩
abbrev S80000 : Shape := ⟨1, ![80000]⟩
abbrev S1 : Shape := ⟨1, ![1]⟩
abbrev S1x1 : Shape := ⟨2, ![1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S4000000x7, .f32⟩
  | .hbm, ⟨1, _⟩ => ⟨S4000000, .i32⟩
  | .hbm, ⟨2, _⟩ => ⟨S7x4000000, .f32⟩
  | .hbm, ⟨3, _⟩ => ⟨S1x4000000, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S7x80000, .f32⟩
  | .local _ .vmem, ⟨1, _⟩ => ⟨S7x80000, .f32⟩
  | .local _ .vmem, ⟨2, _⟩ => ⟨S1x80000, .i32⟩
  | .local _ .vmem, ⟨3, _⟩ => ⟨S1x80000, .i32⟩
  | .local _ .vmem, ⟨4, _⟩ => ⟨S8x128, .f32⟩
  | .local _ .vmem, ⟨5, _⟩ => ⟨S8x128, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S7x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4000000x7_S7x4000000_1_0 : S4000000x7.Transposes [1, 0] S7x4000000
  shapeCasts_S4000000_S1x4000000 : S4000000.ShapeCasts S1x4000000
  inb_S8x128_S8x128_0_0 : ∀ a, (![0, 0] : Fin 2 → Nat) a + S8x128.size a ≤ S8x128.size a
  h_S8x128 : 0 < S8x128.numel
  inb_S7x80000_S7x80000_0_0 : ∀ a, (![0, 0] : Fin 2 → Nat) a + S7x80000.size a ≤ S7x80000.size a
  h_S7x80000 : 0 < S7x80000.numel
  shapeCasts_S7x80000_S7x80000 : S7x80000.ShapeCasts S7x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  reduces_S7x80000_S80000 : S7x80000.Reduces [0] S80000
  shapeCasts_S80000_S1x80000 : S80000.ShapeCasts S1x80000
  broadcasts_S1x80000_S7x80000 : S1x80000.Broadcasts S7x80000
  iota_S7x80000_d0_w32 : S7x80000.Iotas .tc 32 [0]
  reduces_S1x80000_S1 : S1x80000.Reduces [1] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x80000.size a ≤ S7x4000000.size a
  hwx0_0 : ∀ i : grid0.Coords, EltTy.bits .f32 = 32 ∨ (Rect.block (s := S7x4000000) S7x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x4000000.size a
  hwx0_1 : ∀ i : grid0.Coords, EltTy.bits .i32 = 32 ∨ (Rect.block (s := S1x4000000) S1x80000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S7x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x7 : Shape := ⟨2, ![4000000, 7]⟩
abbrev S4000000 : Shape := ⟨1, ![4000000]⟩
abbrev S_ : Shape := ⟨0, ![]⟩
abbrev S4000000x1 : Shape := ⟨2, ![4000000, 1]⟩
abbrev S4000000x2 : Shape := ⟨2, ![4000000, 2]⟩

abbrev nBuf : Space → Nat
  | .hbm => 108
  | .vmem => 0
  | .smem => 0
  | _ => 0

abbrev bufTy : (tb : Table) → Fin (tcTables nBuf tb) → BufTy
  | .hbm, ⟨0, _⟩ => ⟨S4000000x7, .f32⟩
  | .hbm, ⟨1, _⟩ => ⟨S4000000, .i32⟩
  | .hbm, ⟨2, _⟩ => ⟨S_, .f32⟩
  | .hbm, ⟨3, _⟩ => ⟨S4000000, .f32⟩
  | .hbm, ⟨4, _⟩ => ⟨S_, .f32⟩
  | .hbm, ⟨5, _⟩ => ⟨S4000000, .f32⟩
  | .hbm, ⟨6, _⟩ => ⟨S4000000, .f32⟩
  | .hbm, ⟨7, _⟩ => ⟨S4000000x1, .f32⟩
  | .hbm, ⟨8, _⟩ => ⟨S4000000x7, .f32⟩
  | .hbm, ⟨9, _⟩ => ⟨S4000000x7, .f32⟩
  | .hbm, ⟨10, _⟩ => ⟨S4000000x7, .f32⟩
  | .hbm, ⟨11, _⟩ => ⟨S_, .f32⟩
  | .hbm, ⟨12, _⟩ => ⟨S4000000, .f32⟩
  | .hbm, ⟨13, _⟩ => ⟨S4000000x1, .f32⟩
  | .hbm, ⟨14, _⟩ => ⟨S4000000x7, .f32⟩
  | .hbm, ⟨15, _⟩ => ⟨S4000000x7, .f32⟩
  | .hbm, ⟨16, _⟩ => ⟨S4000000, .i32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x1, .i32⟩
  | .hbm, ⟨33, _⟩ => ⟨S4000000x2, .i32⟩
  | .hbm, ⟨34, _⟩ => ⟨S4000000, .f32⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S_, .i32⟩
  | .hbm, ⟨55, _⟩ => ⟨S4000000, .i32⟩
  | .hbm, ⟨56, _⟩ => ⟨S4000000, .i1⟩
  | .hbm, ⟨57, _⟩ => ⟨S_, .i32⟩
  | .hbm, ⟨58, _⟩ => ⟨S4000000, .i32⟩
  | .hbm, ⟨59, _⟩ => ⟨S4000000, .i32⟩
  | .hbm, ⟨60, _⟩ => ⟨S4000000, .i32⟩
  | .hbm, ⟨61, _⟩ => ⟨S4000000x1, .i32⟩
  | .hbm, ⟨62, _⟩ => ⟨S4000000x1, .i32⟩
  | .hbm, ⟨63, _⟩ => ⟨S4000000x2, .i32⟩
  | .hbm, ⟨64, _⟩ => ⟨S4000000, .f32⟩
  | .hbm, ⟨65, _⟩ => ⟨S_, .f32⟩
  | .hbm, ⟨66, _⟩ => ⟨S_, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S_, .i32⟩
  | .hbm, ⟨71, _⟩ => ⟨S4000000, .i32⟩
  | .hbm, ⟨72, _⟩ => ⟨S4000000, .i1⟩
  | .hbm, ⟨73, _⟩ => ⟨S_, .i32⟩
  | .hbm, ⟨74, _⟩ => ⟨S4000000, .i32⟩
  | .hbm, ⟨75, _⟩ => ⟨S4000000, .i32⟩
  | .hbm, ⟨76, _⟩ => ⟨S_, .i32⟩
  | .hbm, ⟨77, _⟩ => ⟨S4000000, .i32⟩
  | .hbm, ⟨78, _⟩ => ⟨S4000000, .i1⟩
  | .hbm, ⟨79, _⟩ => ⟨S_, .i32⟩
  | .hbm, ⟨80, _⟩ => ⟨S4000000, .i32⟩
  | .hbm, ⟨81, _⟩ => ⟨S4000000, .i32⟩
  | .hbm, ⟨82, _⟩ => ⟨S4000000, .i32⟩
  | .hbm, ⟨83, _⟩ => ⟨S_, .i32⟩
  | .hbm, ⟨84, _⟩ => ⟨S4000000, .i32⟩
  | .hbm, ⟨85, _⟩ => ⟨S4000000, .i1⟩
  | .hbm, ⟨86, _⟩ => ⟨S_, .i32⟩
  | .hbm, ⟨87, _⟩ => ⟨S4000000, .i32⟩
  | .hbm, ⟨88, _⟩ => ⟨S4000000, .i32⟩
  | .hbm, ⟨89, _⟩ => ⟨S4000000, .i32⟩
  | .hbm, ⟨90, _⟩ => ⟨S4000000x1, .i32⟩
  | .hbm, ⟨91, _⟩ => ⟨S4000000x1, .i32⟩
  | .hbm, ⟨92, _⟩ => ⟨S4000000x2, .i32⟩
  | .hbm, ⟨93, _⟩ => ⟨S4000000, .f32⟩
  | .hbm, ⟨94, _⟩ => ⟨S_, .f32⟩
  | .hbm, ⟨95, _⟩ => ⟨S_, .f32⟩
  | .hbm, ⟨96, _⟩ => ⟨S4000000, .f32⟩
  | .hbm, ⟨97, _⟩ => ⟨S4000000, .f32⟩
  | .hbm, ⟨98, _⟩ => ⟨S4000000, .f32⟩
  | .hbm, ⟨99, _⟩ => ⟨S_, .f32⟩
  | .hbm, ⟨100, _⟩ => ⟨S4000000, .f32⟩
  | .hbm, ⟨101, _⟩ => ⟨S4000000, .f32⟩
  | .hbm, ⟨102, _⟩ => ⟨S4000000, .f32⟩
  | .hbm, ⟨103, _⟩ => ⟨S4000000, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_c_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩
abbrev main_v49 : Ref sig .tc := ⟨.hbm, 69, rfl⟩
abbrev main_c_14 : Ref sig .tc := ⟨.hbm, 70, rfl⟩
abbrev main_v50 : Ref sig .tc := ⟨.hbm, 71, rfl⟩
abbrev main_v51 : Ref sig .tc := ⟨.hbm, 72, rfl⟩
abbrev main_c_15 : Ref sig .tc := ⟨.hbm, 73, rfl⟩
abbrev main_v52 : Ref sig .tc := ⟨.hbm, 74, rfl⟩
abbrev main_v53 : Ref sig .tc := ⟨.hbm, 75, rfl⟩
abbrev main_c_16 : Ref sig .tc := ⟨.hbm, 76, rfl⟩
abbrev main_v54 : Ref sig .tc := ⟨.hbm, 77, rfl⟩
abbrev main_v55 : Ref sig .tc := ⟨.hbm, 78, rfl⟩
abbrev main_c_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_18 : Ref sig .tc := ⟨.hbm, 83, rfl⟩
abbrev main_v59 : Ref sig .tc := ⟨.hbm, 84, rfl⟩
abbrev main_v60 : Ref sig .tc := ⟨.hbm, 85, rfl⟩
abbrev main_c_19 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_20 : Ref sig .tc := ⟨.hbm, 94, rfl⟩
abbrev main_call1_v0 : Ref sig .tc := ⟨.hbm, 95, rfl⟩
abbrev main_call1_v1 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_cst_23 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  reducesTo_S4000000x7_S4000000_d1 : S4000000x7.ReducesTo [1] S4000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x7_0_1 : S4000000x1.BroadcastsInDim S4000000x7 (![0, 1] : Fin 2 → Fin S4000000x7.rank)
  concatenates_S4000000x1_S4000000x1_S4000000x2_d1 : Shape.Concatenates [S4000000x1, S4000000x1] S4000000x2 1
  reducesTo_S4000000_S_d0 : S4000000.ReducesTo [0] S_
  gather_S4000000x7_S4000000x2_S4000000_n_01_n_n_01_1_11_wf : GatherDims.WF S4000000x7 S4000000x2 S4000000 [] [0, 1] [] [0, 1] [] 1 ![1, 1]

variable [Facts₀]

def gather_S4000000x7_S4000000x2_S4000000_n_01_n_n_01_1_11 : GatherDims S4000000x7 S4000000x2 S4000000 where
  offsetDims := []
  collapsedSliceDims := [0, 1]
  operandBatchingDims := []
  startIndicesBatchingDims := []
  startIndexMap := [0, 1]
  indexVectorDim := 1
  sliceSizes := ![1, 1]
  wf := gather_S4000000x7_S4000000x2_S4000000_n_01_n_n_01_1_11_wf

class Facts : Prop extends Facts₀ where

variable [Facts]
-- ==== Proof.KPiece.lean ====
/-
  What one grid point leaves in the output's staging block, as a function of what it loads.

  The body loads the point's [7 × 80000] block of logits and its [1 × 80000] block of labels, reduces them to one number
  `s` (the block's sum of losses: `blockTotal`), and adds to the [8 × 128] block it carries a block that holds `s` at
  position (0, 0) and zero elsewhere (`bump`). At the first point of each half of the grid the carried block is first reset to
  zero, so the point leaves `bump` of the zero block; at every other point it leaves `bump` of what the point before left.
-/
import proofs.«420492_j72430328479936_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The lane number of each position of an [8 × 128] block. -/
abbrev lane : IVec S8x128 32 := iota .tc S8x128 32 [1] iota_S8x128_d1_w32

/-- The block's sum of losses, a [1 × 1] vector, from the two loaded blocks. -/
abbrev blockTotal (x0 : Vec F S7x80000 .f32) (x1 : Vec F S1x80000 .i32) : FVec F S1x1 .f32 := k0_pay3 x0 x1

/-- The carried block `acc` with the block's sum added at position (0, 0). -/
abbrev bump (x0 : Vec F S7x80000 .f32) (x1 : Vec F S1x80000 .i32) (acc : Vec F S8x128 .f32) : FVec F S8x128 .f32 :=
  k0_pay1 (blockTotal x0 x1) lane k0_pay4 0#32 acc

/-- A point that does not reset: it leaves `bump` of the block the point before left. -/
theorem out_B (c : Dev nD) (i : grid0.Coords) (a2 : Memref sig .tc .vmem S7x80000 .f32) (h2 : a2.IsWhole)
    (a3 : Memref sig .tc .vmem S1x80000 .i32) (h3 : a3.IsWhole) (a4 : Memref sig .tc .vmem S8x128 .f32) (h4 : a4.IsWhole)
    (hc : ¬cond0_0 i) (x0 : Vec F S7x80000 .f32) (x1 : Vec F S1x80000 .i32) (xo : Vec F S8x128 .f32) :
    out0_B_2 c i a2 h2 a3 h3 a4 h4 hc x0 x1 xo = bump x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S7x80000) hz,
    View.ld_unit_zero (S := S1x80000) hz, View.ld_unit_zero (S := S8x128) hz]

/-- A point that resets: the carried block is the zero block, read back after the reset's store. -/
theorem out_A (c : Dev nD) (i : grid0.Coords) (a2 : Memref sig .tc .vmem S7x80000 .f32) (h2 : a2.IsWhole)
    (a3 : Memref sig .tc .vmem S1x80000 .i32) (h3 : a3.IsWhole) (a4 : Memref sig .tc .vmem S8x128 .f32) (h4 : a4.IsWhole)
    (hc : cond0_0 i) (x0 : Vec F S7x80000 .f32) (x1 : Vec F S1x80000 .i32) :
    out0_A_2 c i a2 h2 a3 h3 a4 h4 hc x0 x1 = bump x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S7x80000) hz,
    View.ld_unit_zero (S := S1x80000) hz, View.ld_unit_zero (S := S8x128) hz]

end Cert.KernelIdeal.KValue

end
-- ==== Proof.Spec.lean ====
/-
  The quantity both programs compute, written once per arrangement, on the extended reals.

  A sample is a row of seven logits `x` and a label word `t`. With `M` the row's largest logit,
  `e c = exp (x c − M)` and `D = ∑ c, e c`:

  * one arrangement adds the `e c` over the classes within one of the label and divides the sum by `D`
    once: `lossK x t = 0 − log ((∑ c, [t − 1 ≤ c ≤ t + 1] · e c) / D + ε)`;
  * the other divides first, `p c = e c / D`, and adds up to three of the quotients, the label's own and its
    two neighbours where they exist: `lossR x t = −log (p t + [t − 1 ≥ 0] · p (t − 1) + [t + 1 < 7] · p (t + 1) + ε)`.

  Every test on `t` is the signed test on 32-bit words the programs make, and the column a word selects is
  the word raised by 7 when negative and then clamped into 0 … 6, as an indexed read of a row does.

  The result is the mean over the 4 000 000 samples: the second arrangement sums all samples at once
  (`GR`), the first sums 80 000 at a time, 25 such sums for each half of the batch, and adds the halves
  (`GK`). That the two are equal for finite logits and labels in 0 … 6 is Proof/Algebra.lean.
-/
import Idealize.ShloMosaic.PureOps.Ideal
import Idealize.ShloMosaic.Lib.ValueIdx

noncomputable section

namespace Cert.Spec

open Idealize.ShloMosaic

/-- The shapes of the two arguments: one row of seven logits per sample, one label per sample. -/
abbrev SX : Shape := ⟨2, ![4000000, 7]⟩
abbrev ST : Shape := ⟨1, ![4000000]⟩

/-- ε: the f32 nearest 10⁻¹⁰, the same word in both programs. -/
def eps : EReal := Ideal.ofBits .f32 0x2EDBE6FF#32
/-- The number of samples as a float, 4·10⁶ (exact in f32), the same word in both programs. -/
def cnt : EReal := Ideal.ofBits .f32 0x4A742400#32
/-- −∞, from which a row's maximum is folded. -/
def ninf : EReal := Ideal.ofBits .f32 0xFF800000#32

/-- A row's largest logit. -/
def rowMax (x : Fin 7 → EReal) : EReal := (Finset.univ : Finset (Fin 7)).fold max ninf x
/-- The shifted exponentials `e c = exp (x c − M)`. -/
def ex (x : Fin 7 → EReal) (c : Fin 7) : EReal := Ideal.exp (x c - rowMax x)
/-- Their sum `D`, the softmax denominator. -/
def den (x : Fin 7 → EReal) : EReal := ∑ c : Fin 7, ex x c

/-! ## Sum first, divide once -/

/-- Class `c` is within one of the label: `t − 1 ≤ c` and `c ≤ t + 1`, both as signed 32-bit words. -/
def near (t : BitVec 32) (c : Fin 7) : BitVec 1 :=
  IntOp.andi (IntOp.cmpi .sge (BitVec.ofNat 32 c.val) (IntOp.subi t 1#32))
    (IntOp.cmpi .sle (BitVec.ofNat 32 c.val) (IntOp.addi t 1#32))

/-- `0 − log ((∑ c near t, e c) / D + ε)`. -/
def lossK (x : Fin 7 → EReal) (t : BitVec 32) : EReal :=
  0 - Ideal.log (Ideal.div (∑ c : Fin 7, Scalar.select (near t c) (ex x c) 0) (den x) + eps)

/-! ## Divide first, add up to three quotients -/

/-- The softmax probability `p c = e c / D`. -/
def prob (x : Fin 7 → EReal) (c : Fin 7) : EReal := Ideal.div (ex x c) (den x)

/-- A negative index word counts from the end: it is raised by the row's length. -/
def wrap (w : BitVec 32) : BitVec 32 := Scalar.select (IntOp.cmpi .slt w 0#32) (IntOp.addi w 7#32) w

/-- The column an index word reads: the wrapped word, read signed, clamped into 0 … 6. -/
def col (w : BitVec 32) : Fin 7 := ⟨min (wrap w).toInt.toNat 6, by omega⟩

/-- `−log (p t + [t − 1 ≥ 0] · p (max (t − 1) 0) + [t + 1 < 7] · p (min (t + 1) 6) + ε)`. -/
def lossR (x : Fin 7 → EReal) (t : BitVec 32) : EReal :=
  -(Ideal.log (((prob x (col t)
      + Scalar.select (IntOp.cmpi .sge (IntOp.subi t 1#32) 0#32) (prob x (col (IntOp.maxsi (IntOp.subi t 1#32) 0#32))) 0)
      + Scalar.select (IntOp.cmpi .slt (IntOp.addi t 1#32) 7#32) (prob x (col (IntOp.minsi (IntOp.addi t 1#32) 6#32))) 0)
      + eps))

/-! ## The mean over the batch -/

/-- Sample `b`'s row of logits. -/
def row (x : SX.Idx → EReal) (b : Fin 4000000) : Fin 7 → EReal := fun c => x (ValueIdx.ix2 b c)
/-- Sample `b`'s label. -/
def lab (t : ST.Idx → BitVec 32) (b : Fin 4000000) : BitVec 32 := t (ValueIdx.ix1 b)

/-- All samples summed at once from zero, then divided by their number. -/
def GR (x : SX.Idx → EReal) (t : ST.Idx → BitVec 32) : EReal :=
  Ideal.div (0 + ∑ b : Fin 4000000, lossR (row x b) (lab t b)) cnt

/-- The sample in position `j` of block `k`, the blocks being 80 000 consecutive samples each. -/
def samp (k : Fin 50) (j : Fin 80000) : Fin 4000000 := ⟨k.val * 80000 + j.val, by omega⟩

/-- Block `k`'s sum of losses. -/
def blockSum (x : SX.Idx → EReal) (t : ST.Idx → BitVec 32) (k : Fin 50) : EReal :=
  ∑ j : Fin 80000, lossK (row x (samp k j)) (lab t (samp k j))

/-- Half `p` of the batch: its 25 block sums added. -/
def half (x : SX.Idx → EReal) (t : ST.Idx → BitVec 32) (p : Fin 2) : EReal :=
  ∑ s : Fin 25, blockSum x t ⟨p.val * 25 + s.val, by omega⟩

/-- The two halves added, then divided by the number of samples. -/
def GK (x : SX.Idx → EReal) (t : ST.Idx → BitVec 32) : EReal :=
  Ideal.div (half x t 0 + half x t 1) cnt

end Cert.Spec

end
-- ==== Proof.KPay.lean ====
/-
  The body's arithmetic read at an index, on the extended reals.

  Column `j` of the point's blocks is one sample: its seven logits `x0 (c, j)` and its label `x1 (0, j)`. The body takes
  the column's maximum, the shifted exponentials and their sum, keeps the exponentials of the classes within one of the
  label, divides their sum by the whole sum, adds ε, takes the logarithm and negates: Spec's `lossK` of that sample. The
  block's total is the sum of these over the 80 000 columns, and the carried [8 × 128] block gets it added at (0, 0).
-/
import proofs.«420492_j72430328479936_2_alg».proof.Proof.Gen.KernelIdeal.Skeleton
import proofs.«420492_j72430328479936_2_alg».proof.Proof.Spec
import Idealize.ShloMosaic.Lib.Pipeline.Value
import Idealize.ShloMosaic.Lib.ValueIdx
import Idealize.ShloMosaic.PureOps.Ideal.Laws
import Idealize.ShloMosaic.Lib.Affine

set_option maxRecDepth 16384

noncomputable section

open Idealize.ShloMosaic Idealize.ShloMosaic.ValueIdx

namespace Cert.KernelIdeal.KValue

open Cert.KernelIdeal Cert.KernelIdeal.Gen

variable {α : Type}

/-! ## The layout steps, each at an index -/

/-- Row `k` of column `j`: the index a reduction over the rows visits at `k`. -/
theorem lift_rows (h : S7x80000.Reduces [0] S80000) (j : Fin 80000) (k : Fin 7) :
    h.lift (ix1 j) k = ix2 k j := by
  funext a; apply Fin.ext
  match a with
  | ⟨0, _⟩ => rfl
  | ⟨1, _⟩ => rfl

/-- Column `k` of the one row: the index a reduction over the lanes visits at `k`. -/
theorem lift_lanes (h : S1x80000.Reduces [1] S1) (k : Fin 80000) :
    h.lift (ix1 (0 : Fin 1)) k = ix2 (0 : Fin 1) k := by
  funext a; apply Fin.ext
  match a with
  | ⟨0, _⟩ => rfl
  | ⟨1, _⟩ => rfl

/-- A length-80000 vector viewed as one row reads, at (0, j), the vector at j. -/
theorem asRow_apply (w : S80000.Idx → α) (h : S80000.ShapeCasts S1x80000) (j : Fin 80000) :
    shapeCast S1x80000 w h (ix2 (0 : Fin 1) j) = w (ix1 j) :=
  shapeCast_apply w h (ix2 (0 : Fin 1) j) (ix1 j) (by
    rw [Shape.rowMajor_val_one, Shape.rowMajor_val_two]
    show j.val = 0 * 80000 + j.val
    omega)

/-- One row laid under seven reads, at (c, j), the row at (0, j). -/
theorem underRows_apply (w : S1x80000.Idx → α) (h : S1x80000.Broadcasts S7x80000) (c : Fin 7) (j : Fin 80000) :
    broadcastTo S7x80000 w h (ix2 c j) = w (ix2 (0 : Fin 1) j) :=
  broadcastTo_apply w h (ix2 c j) (ix2 (0 : Fin 1) j) (fun a => by
    match a with
    | ⟨0, _⟩ => show (0 : ℕ) = if (1 : ℕ) = 1 then 0 else _; rw [if_pos rfl]
    | ⟨1, _⟩ => show j.val = if (80000 : ℕ) = 1 then 0 else j.val; rw [if_neg (by decide)])

/-- A single number spread over an [8 × 128] block reads that number everywhere. -/
theorem spread_apply (w : S1x1.Idx → α) (h : S1x1.Broadcasts S8x128) (r : Fin 8) (l : Fin 128) :
    broadcastTo S8x128 w h (ix2 r l) = w (ix2 (0 : Fin 1) (0 : Fin 1)) :=
  broadcastTo_apply w h (ix2 r l) (ix2 (0 : Fin 1) (0 : Fin 1)) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])

/-- The sum down column `j`, kept as a row. -/
theorem colSum_apply (v : FVec Ideal S7x80000 .f32) (h : S7x80000.Reduces [0] S80000) (h' : S80000.ShapeCasts S1x80000)
    (hφ : FKind.Formats .f32) (hacc : (0x00000000#32 : BitVec 32) = FKind.add.neutral .f32 hφ) (j : Fin 80000) :
    shapeCast S1x80000 (multiReduction .add [0] S80000 v 0x00000000#32 h hφ hacc) h' (ix2 (0 : Fin 1) j)
      = ∑ c : Fin 7, v (ix2 c j) := by
  rw [asRow_apply, Ideal.multiReduction_add_single]
  exact Finset.sum_congr rfl fun k _ => congrArg v (lift_rows h j k)

/-- The maximum down column `j` from −∞, kept as a row: Spec's `rowMax` of the column. -/
theorem colMax_apply (v : FVec Ideal S7x80000 .f32) (h : S7x80000.Reduces [0] S80000) (h' : S80000.ShapeCasts S1x80000)
    (hφ : FKind.Formats .f32) (hacc : (0xFF800000#32 : BitVec 32) = FKind.maximumf.neutral .f32 hφ) (j : Fin 80000) :
    shapeCast S1x80000 (multiReduction .maximumf [0] S80000 v 0xFF800000#32 h hφ hacc) h' (ix2 (0 : Fin 1) j)
      = Cert.Spec.rowMax (fun c => v (ix2 c j)) := by
  rw [asRow_apply, Ideal.multiReduction_maximumf_single]
  unfold Cert.Spec.rowMax Cert.Spec.ninf
  congr 1
  funext k
  exact congrArg v (lift_rows h j k)

/-- The sum along the one row, kept as a [1 × 1] block. -/
theorem laneSum_apply (v : FVec Ideal S1x80000 .f32) (h : S1x80000.Reduces [1] S1) (h' : S1.ShapeCasts S1x1)
    (hφ : FKind.Formats .f32) (hacc : (0x00000000#32 : BitVec 32) = FKind.add.neutral .f32 hφ) (y : S1x1.Idx) :
    shapeCast S1x1 (multiReduction .add [1] S1 v 0x00000000#32 h hφ hacc) h' y
      = ∑ j : Fin 80000, v (ix2 (0 : Fin 1) j) := by
  have h0 : (y 0).val < 1 := (y 0).isLt
  have h1 : (y 1).val < 1 := (y 1).isLt
  rw [shapeCast_apply _ h' y (ix1 (0 : Fin 1)) (by
    rw [Shape.rowMajor_val_one, Shape.rowMajor_val_two]
    show (0 : ℕ) = (y 0).val * 1 + (y 1).val
    omega), Ideal.multiReduction_add_single]
  exact Finset.sum_congr rfl fun k _ => congrArg v (lift_lanes h k)

/-! ## One column of the body -/

/-- The logarithm and the exponential act entry by entry. -/
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-- The shifted exponential of class `c` in column `j`. -/
theorem exAt (v : FVec Ideal S7x80000 .f32) (h : S7x80000.Reduces [0] S80000) (h' : S80000.ShapeCasts S1x80000)
    (hb : S1x80000.Broadcasts S7x80000) (hφ : FKind.Formats .f32)
    (hmax : (0xFF800000#32 : BitVec 32) = FKind.maximumf.neutral .f32 hφ) (c : Fin 7) (j : Fin 80000) :
    exp (subf v (broadcastTo S7x80000 (shapeCast S1x80000 (multiReduction .maximumf [0] S80000 v 0xFF800000#32 h hφ hmax) h') hb))
        (ix2 c j)
      = Cert.Spec.ex (fun c => v (ix2 c j)) c := by
  show Ideal.exp (v (ix2 c j) - broadcastTo S7x80000 _ hb (ix2 c j)) = _
  rw [underRows_apply, colMax_apply]
  rfl

/-- The same with the block passed through a same-shape cast first, as the body has it. -/
theorem exAt_cast (x0 : Vec Ideal S7x80000 .f32) (hs : S7x80000.ShapeCasts S7x80000) (h : S7x80000.Reduces [0] S80000)
    (h' : S80000.ShapeCasts S1x80000) (hb : S1x80000.Broadcasts S7x80000) (hφ : FKind.Formats .f32)
    (hmax : (0xFF800000#32 : BitVec 32) = FKind.maximumf.neutral .f32 hφ) (c : Fin 7) (j : Fin 80000) :
    exp (subf (shapeCast S7x80000 x0 hs : FVec Ideal S7x80000 .f32) (broadcastTo S7x80000
          (shapeCast S1x80000 (multiReduction .maximumf [0] S80000 (shapeCast S7x80000 x0 hs : FVec Ideal S7x80000 .f32)
            0xFF800000#32 h hφ hmax) h') hb))
        (ix2 c j)
      = Cert.Spec.ex (fun c => x0 (ix2 c j)) c := by
  rw [shapeCast_self]
  exact exAt x0 h h' hb hφ hmax c j

/-- The window test of class `c` against column `j`'s label. -/
theorem nearAt (w : IVec S1x80000 32) (hi : S7x80000.Iotas .tc 32 [0]) (hb : S1x80000.Broadcasts S7x80000)
    (c : Fin 7) (j : Fin 80000) :
    andi (cmpi .sge (iota .tc S7x80000 32 [0] hi) (broadcastTo S7x80000 (subi w (broadcast S1x80000 1#32)) hb))
         (cmpi .sle (iota .tc S7x80000 32 [0] hi) (broadcastTo S7x80000 (addi w (broadcast S1x80000 1#32)) hb)) (ix2 c j)
      = Cert.Spec.near (w (ix2 (0 : Fin 1) j)) c := by
  show IntOp.andi (IntOp.cmpi .sge (iota .tc S7x80000 32 [0] hi (ix2 c j)) (broadcastTo S7x80000 _ hb (ix2 c j)))
        (IntOp.cmpi .sle (iota .tc S7x80000 32 [0] hi (ix2 c j)) (broadcastTo S7x80000 _ hb (ix2 c j))) = _
  rw [iota_single_apply, underRows_apply, underRows_apply]
  rfl

theorem nearAt_cast (x1 : Vec Ideal S1x80000 .i32) (hs : S1x80000.ShapeCasts S1x80000) (hi : S7x80000.Iotas .tc 32 [0])
    (hb : S1x80000.Broadcasts S7x80000) (c : Fin 7) (j : Fin 80000) :
    andi (cmpi .sge (iota .tc S7x80000 32 [0] hi)
            (broadcastTo S7x80000 (subi (shapeCast S1x80000 x1 hs : IVec S1x80000 32) (broadcast S1x80000 1#32)) hb))
         (cmpi .sle (iota .tc S7x80000 32 [0] hi)
            (broadcastTo S7x80000 (addi (shapeCast S1x80000 x1 hs : IVec S1x80000 32) (broadcast S1x80000 1#32)) hb))
        (ix2 c j)
      = Cert.Spec.near (x1 (ix2 (0 : Fin 1) j)) c := by
  rw [shapeCast_self]
  exact nearAt x1 hi hb c j

/-- A kept-or-zeroed entry. -/
theorem keptAt (M : IVec S7x80000 1) (E : FVec Ideal S7x80000 .f32) (c : Fin 7) (j : Fin 80000) :
    select M E (broadcast S7x80000 (FloatOps.ofBits (F := Ideal) .f32 0x00000000#32)) (ix2 c j)
      = Scalar.select (M (ix2 c j)) (E (ix2 c j)) 0 := by
  show Scalar.select _ _ (Ideal.ofBits .f32 0x00000000#32) = _
  rw [Ideal.ofBits_zero_f32]

/-- The column's loss from its kept entries and all its entries: kept sum over whole sum, plus ε, logarithm, negated. -/
theorem lossAt (M : IVec S7x80000 1) (E : FVec Ideal S7x80000 .f32) (h : S7x80000.Reduces [0] S80000)
    (h' : S80000.ShapeCasts S1x80000) (hφ : FKind.Formats .f32)
    (hadd : (0x00000000#32 : BitVec 32) = FKind.add.neutral .f32 hφ) (j : Fin 80000) :
    subf (broadcast S1x80000 (FloatOps.ofBits (F := Ideal) .f32 0x00000000#32))
      (log (addf
        (divf
          (shapeCast S1x80000 (multiReduction .add [0] S80000
            (select M E (broadcast S7x80000 (FloatOps.ofBits (F := Ideal) .f32 0x00000000#32))) 0x00000000#32 h hφ hadd) h')
          (shapeCast S1x80000 (multiReduction .add [0] S80000 E 0x00000000#32 h hφ hadd) h'))
        (broadcast S1x80000 (FloatOps.ofBits (F := Ideal) .f32 0x2EDBE6FF#32)))) (ix2 (0 : Fin 1) j)
      = 0 - Ideal.log (Ideal.div (∑ c : Fin 7, Scalar.select (M (ix2 c j)) (E (ix2 c j)) 0) (∑ c : Fin 7, E (ix2 c j))
          + Cert.Spec.eps) := by
  rw [subf_apply, broadcast_apply, log_apply, addf_apply, divf_apply, broadcast_apply, colSum_apply, colSum_apply]
  simp only [keptAt, Ideal.ofBits_def, Ideal.ofBits_zero_f32]
  rfl

/-! ## The payloads -/

/-- The block's total: the sum over its 80 000 columns of each sample's loss. -/
theorem blockTotal_apply (x0 : Vec Ideal S7x80000 .f32) (x1 : Vec Ideal S1x80000 .i32) (y : S1x1.Idx) :
    k0_pay3 (F := Ideal) x0 x1 y
      = ∑ j : Fin 80000, Cert.Spec.lossK (fun c => x0 (ix2 c j)) (x1 (ix2 (0 : Fin 1) j)) := by
  unfold k0_pay3
  dsimp only
  refine (laneSum_apply _ reduces_S1x80000_S1 shapeCasts_S1_S1x1 (.inl rfl) rfl y).trans ?_
  refine Finset.sum_congr rfl fun j _ => ?_
  refine (lossAt _ _ reduces_S7x80000_S80000 shapeCasts_S80000_S1x80000 (.inl rfl) rfl j).trans ?_
  unfold Cert.Spec.lossK Cert.Spec.den
  refine congrArg (fun z => 0 - Ideal.log (z + Cert.Spec.eps))
    (congrArg₂ Ideal.div (Finset.sum_congr rfl fun c _ => ?_) (Finset.sum_congr rfl fun c _ => ?_))
  · exact congrArg₂ (fun a b => Scalar.select a b (0 : EReal))
      (nearAt_cast x1 shapeCasts_S1x80000_S1x80000 iota_S7x80000_d0_w32 broadcasts_S1x80000_S7x80000 c j)
      (exAt_cast x0 shapeCasts_S7x80000_S7x80000 reduces_S7x80000_S80000 shapeCasts_S80000_S1x80000
        broadcasts_S1x80000_S7x80000 (.inl rfl) rfl c j)
  · exact exAt_cast x0 shapeCasts_S7x80000_S7x80000 reduces_S7x80000_S80000 shapeCasts_S80000_S1x80000
      broadcasts_S1x80000_S7x80000 (.inl rfl) rfl c j

/-- A small number as a 32-bit word is the zero word exactly when it is zero. -/
theorem ofNat_eq_zero_iff (n : ℕ) (hn : n < 2 ^ 32) : BitVec.ofNat 32 n = 0#32 ↔ n = 0 := by
  constructor
  · intro h
    have := congrArg BitVec.toNat h
    rw [BitVec.toNat_ofNat, Nat.mod_eq_of_lt hn] at this
    exact this
  · rintro rfl; rfl

/-- The test "row 0 and lane 0" of an [8 × 128] block, as the body computes it on words. -/
theorem corner_bit (r : Fin 8) (l : Fin 128) :
    IntOp.andi (IntOp.cmpi .eq (BitVec.ofNat 32 r.val) 0#32) (IntOp.cmpi .eq (BitVec.ofNat 32 l.val) 0#32) = 1#1
      ↔ (r.val = 0 ∧ l.val = 0) := by
  rw [IntOp.andi_eq_one, IntOp.cmpi_eq, IntOp.cmpi_eq, ofNat_eq_zero_iff _ (by omega), ofNat_eq_zero_iff _ (by omega)]

/-- The carried block with the block's total added at (0, 0): elsewhere a zero is added. -/
theorem bump_apply (s : FVec Ideal S1x1 .f32) (acc : Vec Ideal S8x128 .f32) (r : Fin 8) (l : Fin 128) :
    k0_pay1 (F := Ideal) s (iota .tc S8x128 32 [1] iota_S8x128_d1_w32) k0_pay4 0#32 acc (ix2 r l)
      = acc (ix2 r l) + (if r.val = 0 ∧ l.val = 0 then s (ix2 (0 : Fin 1) (0 : Fin 1)) else 0) := by
  unfold k0_pay1 k0_pay4
  dsimp only
  show (shapeCast S8x128 acc shapeCasts_S8x128_S8x128) (ix2 r l)
      + Scalar.select (IntOp.andi (IntOp.cmpi .eq (iota .tc S8x128 32 [0] iota_S8x128_d0_w32 (ix2 r l)) 0#32)
            (IntOp.cmpi .eq (iota .tc S8x128 32 [1] iota_S8x128_d1_w32 (ix2 r l)) 0#32))
          (broadcastTo S8x128 (shapeCast S1x1 s shapeCasts_S1x1_S1x1) broadcasts_S1x1_S8x128 (ix2 r l))
          (Ideal.ofBits .f32 0x00000000#32) = _
  rw [shapeCast_self, iota_single_apply, iota_single_apply, spread_apply, shapeCast_self, Ideal.ofBits_zero_f32]
  refine congrArg (acc (ix2 r l) + ·) ?_
  show (if _ = 1#1 then _ else _) = _
  exact if_congr (corner_bit r l) rfl rfl

/-- Both together: the carried block after a point, from the point's two blocks. -/
theorem bump_total (x0 : Vec Ideal S7x80000 .f32) (x1 : Vec Ideal S1x80000 .i32) (acc : Vec Ideal S8x128 .f32)
    (r : Fin 8) (l : Fin 128) :
    k0_pay1 (F := Ideal) (k0_pay3 x0 x1) (iota .tc S8x128 32 [1] iota_S8x128_d1_w32) k0_pay4 0#32 acc (ix2 r l)
      = acc (ix2 r l) + (if r.val = 0 ∧ l.val = 0
          then ∑ j : Fin 80000, Cert.Spec.lossK (fun c => x0 (ix2 c j)) (x1 (ix2 (0 : Fin 1) j)) else 0) := by
  rw [bump_apply, blockTotal_apply]

/-- The block a reset stores is zero everywhere. -/
theorem zeroBlock_apply (i : S8x128.Idx) : k0_pay2 (F := Ideal) i = 0 := by
  show Ideal.ofBits .f32 0x00000000#32 = 0
  exact Ideal.ofBits_zero_f32

end Cert.KernelIdeal.KValue

end
-- ==== Proof.KBlock.lean ====
/-
  What the windows' blocks hold, in terms of the two arguments.

  Before the grid runs the logits are transposed to [7 × 4 000 000] and the labels viewed as one row [1 × 4 000 000].
  Grid point `t` (of 50) reads columns 80 000·t … 80 000·t + 79 999 of both: entry (c, j) of its logits block is logit `c`
  of sample 80 000·t + j, and entry (0, j) of its labels block is that sample's label.
-/
import proofs.«420492_j72430328479936_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]
variable (m : (ℓ : Loc nD τ sig) → Buf (Elt F) ℓ)

/-- The logits as the grid finds them: the argument transposed. -/
theorem V_logits (c : Dev nD) :
    (V m c main_v0 : S7x4000000.Idx → Elt F .f32)
      = transpose S7x4000000 [1, 0] (m ((c : Thread nD τ).loc main_arg0)) transposes_S4000000x7_S7x4000000_1_0 := by
  show StableHlo.after hostOps0 (fun b => m (c, b)) (Proc.devRef .tc main_v0) = _
  after_results

/-- The labels as the grid finds them: the argument viewed as one row. -/
theorem V_labels (c : Dev nD) :
    (V m c main_v1 : S1x4000000.Idx → Elt F .i32)
      = shapeCast S1x4000000 (m ((c : Thread nD τ).loc main_arg1)) shapeCasts_S4000000_S1x4000000 := by
  show StableHlo.after hostOps0 (fun b => m (c, b)) (Proc.devRef .tc main_v1) = _
  after_results
  rfl

/-- Which block each window reads or writes at grid point `t`: the inputs' block `t` along the samples, the output's
    block `t / 25` along the rows. Decided over the 50 points. -/
theorem index_in0 : ∀ t : Fin cfg0.N, win0_0.index t 0 = 0 ∧ win0_0.index t 1 = t.val :=
  (by decide +kernel : ∀ t : Fin grid0.N, win0_0.index t 0 = 0 ∧ win0_0.index t 1 = t.val)
theorem index_in1 : ∀ t : Fin cfg0.N, win0_1.index t 0 = 0 ∧ win0_1.index t 1 = t.val :=
  (by decide +kernel : ∀ t : Fin grid0.N, win0_1.index t 0 = 0 ∧ win0_1.index t 1 = t.val)
theorem index_out : ∀ t : Fin cfg0.N, win0_2.index t 0 = t.val / 25 ∧ win0_2.index t 1 = 0 :=
  (by decide +kernel : ∀ t : Fin grid0.N, win0_2.index t 0 = t.val / 25 ∧ win0_2.index t 1 = 0)

/-- Grid point `t`'s block of logits and of labels, at their literal shapes. -/
abbrev xblk (c : Dev nD) (t : Fin cfg0.N) : Vec F S7x80000 .f32 := iblk m c 0 t
abbrev tblk (c : Dev nD) (t : Fin cfg0.N) : Vec F S1x80000 .i32 := iblk m c 1 t

theorem lt50 (t : Fin cfg0.N) : t.val < 50 := lt_of_lt_of_eq t.isLt (show cfg0.N = 50 from N_0)

/-- Entry (cl, j) of point `t`'s logits block is logit `cl` of sample 80 000·t + j. -/
theorem xblk_apply (c : Dev nD) (t : Fin cfg0.N) (cl : Fin 7) (j : Fin 80000) :
    xblk m c t (ix2 cl j)
      = m ((c : Thread nD τ).loc main_arg0) (ix2 (⟨t.val * 80000 + j.val, by have := lt50 t; omega⟩ : Fin 4000000) cl) := by
  have hi := index_in0 t
  unfold xblk iblk
  rw [View.read_apply]
  show V m c main_v0 _ = _
  rw [V_logits]
  refine transpose_apply _ _ _ _ _ (fun b => ?_)
  match b with
  | ⟨0, _⟩ => show cl.val = win0_0.index t 0 * 7 + 1 * cl.val; rw [hi.1]; omega
  | ⟨1, _⟩ => show t.val * 80000 + j.val = win0_0.index t 1 * 80000 + 1 * j.val; rw [hi.2]; omega

/-- Entry (0, j) of point `t`'s labels block is the label of sample 80 000·t + j. -/
theorem tblk_apply (c : Dev nD) (t : Fin cfg0.N) (j : Fin 80000) :
    tblk m c t (ix2 (0 : Fin 1) j)
      = m ((c : Thread nD τ).loc main_arg1) (ix1 (⟨t.val * 80000 + j.val, by have := lt50 t; omega⟩ : Fin 4000000)) := by
  have hi := index_in1 t
  unfold tblk iblk
  rw [View.read_apply]
  show V m c main_v1 _ = _
  rw [V_labels]
  refine shapeCast_apply _ _ _ _ ?_
  show (S4000000.rowMajor (ix1 (⟨t.val * 80000 + j.val, by have := lt50 t; omega⟩ : Fin 4000000))).val
    = (S1x4000000.rowMajor (((cfg0.win 1).blk t).view.emb (ix2 (0 : Fin 1) j))).val
  rw [Shape.rowMajor_val_one, Shape.rowMajor_val_two]
  show t.val * 80000 + j.val = (win0_1.index t 0 * 1 + 1 * 0) * 4000000 + (win0_1.index t 1 * 80000 + 1 * j.val)
  rw [hi.1, hi.2]; omega

end Cert.KernelIdeal.KValue

end
-- ==== Proof.KAcc.lean ====
/-
  What the carried [8 × 128] block holds after each grid point.

  Position (0, 0) holds the running total of the block sums since the last reset, every other position holds zero: a
  reset point leaves `0 + s` at (0, 0) and `0 + 0` elsewhere, any other point adds its block sum `s` at (0, 0) and
  zero elsewhere to what the point before left. By induction on the point. The running total is then written as a
  finite sum, and at the last point of each half of the grid it is that half's 25 block sums added up.
-/
import proofs.«420492_j72430328479936_2_alg».proof.Proof.KPiece
import proofs.«420492_j72430328479936_2_alg».proof.Proof.KPay
import proofs.«420492_j72430328479936_2_alg».proof.Proof.KBlock

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ)

/-- Grid point `t`'s block sum: its 80 000 samples' losses added. -/
def blockLoss (c : Dev nD) (t : Fin cfg0.N) : EReal :=
  ∑ j : Fin 80000, Cert.Spec.lossK (fun cl => xblk m c t (ix2 cl j)) (tblk m c t (ix2 (0 : Fin 1) j))

/-- The same with a junk zero past the grid, as a function of the point's number. -/
def blockLossN (c : Dev nD) (k : ℕ) : EReal := if h : k < cfg0.N then blockLoss m c ⟨k, h⟩ else 0

/-- The running total since the last reset (the points divisible by 25 reset). -/
def running (c : Dev nD) : (n : ℕ) → n < cfg0.N → EReal
  | 0, h => 0 + blockLoss m c ⟨0, h⟩
  | n + 1, h =>
    if (n + 1) % 25 = 0 then 0 + blockLoss m c ⟨n + 1, h⟩
    else running c n (Nat.lt_of_succ_lt h) + blockLoss m c ⟨n + 1, h⟩

/-- A reset point leaves `0 + s` at (0, 0) and zero elsewhere. -/
theorem at_reset (c : Dev nD) (t : Fin cfg0.N) (h0 : t.val % 25 = 0) (r : Fin 8) (l : Fin 128) :
    outsAt0 m c t.val t.isLt (ix2 r l) = if r.val = 0 ∧ l.val = 0 then 0 + blockLoss m c t else 0 := by
  refine (congrFun (outsAt0_A m c t h0) (ix2 r l)).trans ?_
  refine (congrFun (out_A c (grid0.coords t) (ms0_0 t) (hs0_0 t) (ms0_1 t) (hs0_1 t) (ms0_2 t) (hs0_2 t)
    ((hcond0_0 t).mpr h0) (iblk m c 0 t) (iblk m c 1 t)) (ix2 r l)).trans ?_
  refine (bump_total (xblk m c t) (tblk m c t) (k0_pay2 (F := Ideal)) r l).trans ?_
  rw [zeroBlock_apply]
  by_cases hp : r.val = 0 ∧ l.val = 0
  · rw [if_pos hp, if_pos hp]; rfl
  · rw [if_neg hp, if_neg hp, add_zero]

/-- Any other point adds its block sum at (0, 0), and zero elsewhere, to what the point before left. -/
theorem at_carry (c : Dev nD) (t : Fin cfg0.N) (h0 : ¬t.val % 25 = 0) (r : Fin 8) (l : Fin 128) :
    outsAt0 m c t.val t.isLt (ix2 r l)
      = outsAt0 m c (t.val - 1) (Nat.lt_of_le_of_lt (Nat.sub_le _ _) t.isLt) (ix2 r l)
        + (if r.val = 0 ∧ l.val = 0 then blockLoss m c t else 0) := by
  refine (congrFun (outsAt0_B m c t h0) (ix2 r l)).trans ?_
  refine (congrFun (out_B c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix2 r l)).trans ?_
  exact bump_total (xblk m c t) (tblk m c t) _ r l

/-- After every point: the running total at (0, 0), zero elsewhere. -/
theorem carried_eq (c : Dev nD) : ∀ (n : ℕ) (h : n < cfg0.N) (r : Fin 8) (l : Fin 128),
    outsAt0 m c n h (ix2 r l) = if r.val = 0 ∧ l.val = 0 then running m c n h else 0
  | 0, h, r, l => at_reset m c ⟨0, h⟩ rfl r l
  | n + 1, h, r, l => by
    by_cases h0 : (n + 1) % 25 = 0
    · refine (at_reset m c ⟨n + 1, h⟩ h0 r l).trans ?_
      show _ = if r.val = 0 ∧ l.val = 0 then
          (if (n + 1) % 25 = 0 then 0 + blockLoss m c ⟨n + 1, h⟩
            else running m c n (Nat.lt_of_succ_lt h) + blockLoss m c ⟨n + 1, h⟩) else 0
      rw [if_pos h0]
    · refine (at_carry m c ⟨n + 1, h⟩ h0 r l).trans ?_
      show outsAt0 m c n (Nat.lt_of_succ_lt h) (ix2 r l) + _ = if r.val = 0 ∧ l.val = 0 then
          (if (n + 1) % 25 = 0 then 0 + blockLoss m c ⟨n + 1, h⟩
            else running m c n (Nat.lt_of_succ_lt h) + blockLoss m c ⟨n + 1, h⟩) else 0
      rw [carried_eq c n (Nat.lt_of_succ_lt h) r l, if_neg h0]
      by_cases hp : r.val = 0 ∧ l.val = 0
      · rw [if_pos hp, if_pos hp, if_pos hp]
      · rw [if_neg hp, if_neg hp, if_neg hp, add_zero]

/-- The running total as a finite sum: the block sums from the last reset up to the point. -/
theorem running_eq_sum (c : Dev nD) : ∀ (n : ℕ) (h : n < cfg0.N),
    running m c n h = ∑ s ∈ Finset.range (n % 25 + 1), blockLossN m c (n - n % 25 + s)
  | 0, h => by
    show 0 + blockLoss m c ⟨0, h⟩ = _
    rw [zero_add, show (0 % 25 + 1) = 1 from rfl, Finset.sum_range_one]
    show _ = blockLossN m c 0
    unfold blockLossN
    rw [dif_pos h]
  | n + 1, h => by
    show (if (n + 1) % 25 = 0 then 0 + blockLoss m c ⟨n + 1, h⟩
      else running m c n (Nat.lt_of_succ_lt h) + blockLoss m c ⟨n + 1, h⟩) = _
    have hb : blockLoss m c ⟨n + 1, h⟩ = blockLossN m c (n + 1) := by unfold blockLossN; rw [dif_pos h]
    by_cases h0 : (n + 1) % 25 = 0
    · rw [if_pos h0, zero_add, h0, Finset.sum_range_one, hb]
      show _ = blockLossN m c (n + 1 - 0 + 0)
      rfl
    · rw [if_neg h0, running_eq_sum c n (Nat.lt_of_succ_lt h), hb]
      have e1 : (n + 1) % 25 = n % 25 + 1 := by omega
      have e2 : n + 1 - (n + 1) % 25 = n - n % 25 := by omega
      have e3 : n - n % 25 + (n % 25 + 1) = n + 1 := by omega
      rw [e2, e1, Finset.sum_range_succ _ (n % 25 + 1), e3]

/-- At the last point of half `p` of the grid the running total is that half's 25 block sums. -/
theorem running_last (c : Dev nD) (p : Fin 2) (h : p.val * 25 + 24 < cfg0.N) :
    running m c (p.val * 25 + 24) h
      = ∑ s : Fin 25, blockLoss m c ⟨p.val * 25 + s.val, by have := s.isLt; omega⟩ := by
  rw [running_eq_sum]
  have e1 : (p.val * 25 + 24) % 25 = 24 := by omega
  have e2 : p.val * 25 + 24 - 24 = p.val * 25 := by omega
  rw [e1, e2, Finset.sum_range (fun s => blockLossN m c (p.val * 25 + s))]
  refine Finset.sum_congr rfl fun s _ => ?_
  unfold blockLossN
  rw [dif_pos (by have := s.isLt; omega)]

end Cert.KernelIdeal.KValue

end
-- ==== Proof.KFinal.lean ====
/-
  The kernel's result.

  The output array is [16 × 128]: two blocks of 8 rows, one per half of the grid, each written back once, after the last
  point of its half. So the array ends holding half `p`'s total at (8p, 0) and zero elsewhere. The host then adds the
  entries (0, 0) and (8, 0) and divides by the number of samples: Spec's `GK`.
-/
import proofs.«420492_j72430328479936_2_alg».proof.Proof.KAcc
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The two arguments as the specification takes them. -/
abbrev argX (c : Dev nD) : Cert.Spec.SX.Idx → EReal := m ((c : Thread nD τ).loc main_arg0)
abbrev argT (c : Dev nD) : Cert.Spec.ST.Idx → BitVec 32 := m ((c : Thread nD τ).loc main_arg1)

/-- A grid point's block sum is the specification's, of the block with the point's number. -/
theorem blockLoss_eq (c : Dev nD) (t : Fin cfg0.N) :
    blockLoss m c t = Cert.Spec.blockSum (argX m c) (argT m c) ⟨t.val, lt50 t⟩ := by
  unfold blockLoss Cert.Spec.blockSum
  refine Finset.sum_congr rfl fun j _ => ?_
  refine congrArg₂ Cert.Spec.lossK (funext fun cl => ?_) ?_
  · exact xblk_apply m c t cl j
  · exact tblk_apply m c t j

/-- The running total does not depend on how the point's number is written. -/
theorem running_congr (c : Dev nD) {n n' : ℕ} (e : n = n') (h : n < cfg0.N) (h' : n' < cfg0.N) :
    running m c n h = running m c n' h' := by subst e; rfl

/-- Half `p`'s total, with a junk zero for any other number. -/
def halfN (c : Dev nD) (p : ℕ) : EReal := if h : p < 2 then Cert.Spec.half (argX m c) (argT m c) ⟨p, h⟩ else 0

/-- After the last point of a half the running total is that half's total. -/
theorem running_flush (c : Dev nD) (t : Fin cfg0.N) (h24 : t.val % 25 = 24) :
    running m c t.val t.isLt = halfN m c (t.val / 25) := by
  have hN := lt50 t
  have hp : t.val / 25 < 2 := by omega
  unfold halfN
  rw [dif_pos hp]
  rw [running_congr m c (show t.val = (⟨t.val / 25, hp⟩ : Fin 2).val * 25 + 24 by show t.val = t.val / 25 * 25 + 24; omega) t.isLt
    ((show t.val / 25 * 25 + 24 < 50 by omega).trans_eq (show (50 : ℕ) = cfg0.N from N_0.symm)), running_last]
  unfold Cert.Spec.half
  exact Finset.sum_congr rfl fun s _ => blockLoss_eq m c _

/-- What the output array ends holding. -/
def resultArr (c : Dev nD) : S16x128.Idx → EReal := fun i =>
  if (i 0).val % 8 = 0 ∧ (i 1).val = 0 then halfN m c ((i 0).val / 8) else 0

/-- The output's blocks are whole [8 × 128] blocks at every point. -/
theorem xsize_out : ∀ t : Fin cfg0.N, win0_2.xsize (grid0.coords t) 0 = 8 ∧ win0_2.xsize (grid0.coords t) 1 = 128 :=
  (by decide +kernel : ∀ t : Fin grid0.N, win0_2.xsize (grid0.coords t) 0 = 8 ∧ win0_2.xsize (grid0.coords t) 1 = 128)

/-- A write-back writes the block of `resultArr` under it. -/
theorem flushed_eq (c : Dev nD) (t : Fin cfg0.N) (hf : (cfg0.win 2).flush t = true) :
    (dats m 0 c).flushed 2 t = ((cfg0.win 2).blk t).view.read (Elt Ideal) (resultArr m c) := by
  have h24 : t.val % 25 = 24 := (flush0_2 t).mp hf
  have hN := lt50 t
  have hi := index_out t
  have hx := xsize_out t
  show (cfg0.win 2).cut (grid0.coords t) ((dats m 0 c).after 2 t) = _
  rw [after0_2]
  funext y
  rw [View.read_apply]
  have hy0 : (y 0).val < 8 := lt_of_lt_of_eq (y 0).isLt hx.1
  have hy1 : (y 1).val < 128 := lt_of_lt_of_eq (y 1).isLt hx.2
  show outsAt0 m c t.val t.isLt ((cfg0.win 2).xinj (grid0.coords t) y)
    = resultArr m c (((cfg0.win 2).blk t).view.emb y)
  have hin : (cfg0.win 2).xinj (grid0.coords t) y = ix2 (⟨(y 0).val, hy0⟩ : Fin 8) (⟨(y 1).val, hy1⟩ : Fin 128) := by
    funext a; apply Fin.ext
    match a with
    | ⟨0, _⟩ => rfl
    | ⟨1, _⟩ => rfl
  have e0 : ((((cfg0.win 2).blk t).view.emb y) 0).val = t.val / 25 * 8 + (y 0).val := by
    show win0_2.index t 0 * 8 + 1 * (y 0).val = _
    rw [hi.1]; omega
  have e1 : ((((cfg0.win 2).blk t).view.emb y) 1).val = (y 1).val := by
    show win0_2.index t 1 * 128 + 1 * (y 1).val = _
    rw [hi.2]; omega
  rw [hin, carried_eq]
  show (if (y 0).val = 0 ∧ (y 1).val = 0 then running m c t.val t.isLt else 0)
    = if ((((cfg0.win 2).blk t).view.emb y) 0).val % 8 = 0 ∧ ((((cfg0.win 2).blk t).view.emb y) 1).val = 0
        then halfN m c (((((cfg0.win 2).blk t).view.emb y) 0).val / 8) else 0
  rw [e0, e1]
  by_cases hp : (y 0).val = 0 ∧ (y 1).val = 0
  · have hq : (t.val / 25 * 8 + (y 0).val) % 8 = 0 ∧ (y 1).val = 0 := by omega
    rw [if_pos hp, if_pos hq, running_flush m c t h24]
    exact congrArg (halfN m c) (by omega)
  · have hq : ¬((t.val / 25 * 8 + (y 0).val) % 8 = 0 ∧ (y 1).val = 0) := by omega
    rw [if_neg hp, if_neg hq]

/-- The two points that write back: the last of each half. -/
abbrev tA : Fin cfg0.N := ⟨24, (show 24 < 50 by decide).trans_eq (show (50 : ℕ) = cfg0.N from N_0.symm)⟩
abbrev tB : Fin cfg0.N := ⟨49, (show 49 < 50 by decide).trans_eq (show (50 : ℕ) = cfg0.N from N_0.symm)⟩

/-- Rows 0 … 7 lie under the first write-back, rows 8 … 15 under the second: the array ends at `resultArr`. -/
theorem final_out (c : Dev nD) : (dats m 0 c).arrAt 2 cfg0.N = resultArr m c :=
  (dats m 0 c).arrAt_eq_of_cover 2 (resultArr m c) (flushed_eq m c) fun i => by
    have h0 : (i 0 : Nat) < 16 := (i 0).isLt
    have h1 : (i 1 : Nat) < 128 := (i 1).isLt
    by_cases hlo : (i 0 : Nat) < 8
    · refine ⟨tA, (flush0_2 tA).mpr rfl, ?_⟩
      show i ∈ ((View.whole main_v2).slice (win0_2.rect tA)).set
      rw [View.set_slice_whole, Rect.mem_set_unit]
      intro a
      match a with
      | ⟨0, _⟩ =>
        show win0_2.index tA 0 * 8 ≤ (i 0 : Nat) ∧ (i 0 : Nat) < win0_2.index tA 0 * 8 + win0_2.xsize (grid0.coords tA) 0
        rw [(index_out tA).1, (xsize_out tA).1]; show 24 / 25 * 8 ≤ (i 0 : Nat) ∧ (i 0 : Nat) < 24 / 25 * 8 + 8; omega
      | ⟨1, _⟩ =>
        show win0_2.index tA 1 * 128 ≤ (i 1 : Nat) ∧ (i 1 : Nat) < win0_2.index tA 1 * 128 + win0_2.xsize (grid0.coords tA) 1
        rw [(index_out tA).2, (xsize_out tA).2]; omega
    · refine ⟨tB, (flush0_2 tB).mpr rfl, ?_⟩
      show i ∈ ((View.whole main_v2).slice (win0_2.rect tB)).set
      rw [View.set_slice_whole, Rect.mem_set_unit]
      intro a
      match a with
      | ⟨0, _⟩ =>
        show win0_2.index tB 0 * 8 ≤ (i 0 : Nat) ∧ (i 0 : Nat) < win0_2.index tB 0 * 8 + win0_2.xsize (grid0.coords tB) 0
        rw [(index_out tB).1, (xsize_out tB).1]; show 49 / 25 * 8 ≤ (i 0 : Nat) ∧ (i 0 : Nat) < 49 / 25 * 8 + 8; omega
      | ⟨1, _⟩ =>
        show win0_2.index tB 1 * 128 ≤ (i 1 : Nat) ∧ (i 1 : Nat) < win0_2.index tB 1 * 128 + win0_2.xsize (grid0.coords tB) 1
        rw [(index_out tB).2, (xsize_out tB).2]; omega

/-- The [1 × 1] slice of a [16 × 128] array at row `r0`, lane 0, viewed as a scalar, is the array's entry there. -/
theorem pick (R : S16x128.Idx → EReal) (r0 : Fin 16) (off : Fin 2 → ℕ) (hoff : off = ![r0.val, 0])
    (hs : S16x128.Slices off S1x1) (hc : S1x1.ShapeCasts S_) (i : S_.Idx) :
    shapeCast S_ (extractStridedSlice S1x1 off R hs) hc i = R (ix2 r0 (0 : Fin 128)) := by
  subst hoff
  rw [shapeCast_apply _ hc i (ix2 (0 : Fin 1) (0 : Fin 1)) (by
    rw [Shape.rowMajor_val_two]
    have h1 : (S_.rowMajor i).val < 1 := (S_.rowMajor i).isLt
    show (0 : ℕ) * 1 + 0 = (S_.rowMajor i).val
    omega)]
  exact extractStridedSlice_apply _ R hs _ (ix2 r0 (0 : Fin 128)) (fun a => by
    match a with
    | ⟨0, _⟩ => show r0.val = r0.val + 0; omega
    | ⟨1, _⟩ => show (0 : ℕ) = 0 + 0; rfl)

/-- The entries the host picks: the two halves' totals. -/
theorem resultArr_head (c : Dev nD) (p : Fin 2) :
    resultArr m c (ix2 (⟨p.val * 8, by have := p.isLt; omega⟩ : Fin 16) (0 : Fin 128))
      = Cert.Spec.half (argX m c) (argT m c) p := by
  have hp := p.isLt
  show (if (p.val * 8) % 8 = 0 ∧ (0 : ℕ) = 0 then halfN m c (p.val * 8 / 8) else 0) = _
  rw [if_pos ⟨by omega, rfl⟩, show p.val * 8 / 8 = p.val by omega]
  unfold halfN
  rw [dif_pos hp]

/-- After the host's last lines the result is the two entries added and divided by the number of samples. -/
theorem tail_eq (c : Dev nD) :
    Pipeline.afterTail₀ cfgs (dats m) 0 (V0 m) [hostOps1] c main_v8 = fun _ => Cert.Spec.GK (argX m c) (argT m c) := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v2) = resultArr m c :=
    (Pipeline.withArrays_arr spec0 launch0.win.arr_inj c _ _ 2).trans (final_out m c)
  rw [hw]
  funext i
  show Ideal.div
      (shapeCast S_ (extractStridedSlice S1x1 ![0, 0] (resultArr m c) slices_S16x128_S1x1_0_0) shapeCasts_S1x1_S_ i
        + shapeCast S_ (extractStridedSlice S1x1 ![8, 0] (resultArr m c) slices_S16x128_S1x1_8_0) shapeCasts_S1x1_S_ i)
      Cert.Spec.cnt = _
  rw [pick (resultArr m c) (0 : Fin 16) ![0, 0] rfl, pick (resultArr m c) (8 : Fin 16) ![8, 0] rfl]
  show Ideal.div (resultArr m c (ix2 (⟨(0 : Fin 2).val * 8, by decide⟩ : Fin 16) (0 : Fin 128))
      + resultArr m c (ix2 (⟨(1 : Fin 2).val * 8, by decide⟩ : Fin 16) (0 : Fin 128))) Cert.Spec.cnt = _
  rw [resultArr_head, resultArr_head]
  rfl

/-- THE KERNEL'S RUN, READ: every execution ends with the result at `GK` of the arguments, and the arguments unchanged. -/
theorem run : θ_run defs (onTc (τ := τ) (main (F := Ideal))) ⟨m, fun _ => 0, ρ⟩ fun r => ∀ c : Dev nD,
      r.2.mem ((c.tc : Thread nD τ).loc main_v8) = (fun _ => Cert.Spec.GK (argX m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.LibConcatPair.lean ====
/-
  A concatenation of two equal-shaped pieces read at coordinates.

  `concatenate` of two rank-2 arrays of shape [n, c] along the rows is the first piece on rows below `n` and the second,
  `n` rows up, from there on; along the columns likewise; and of two rank-1 arrays of length `n` the same on the one
  axis. Stated over any extents (the result's extent `N` with `N = n + n` as a hypothesis, so that a literal result
  shape matches as it stands) and over the program's own shape relation `h`.
-/
import Idealize.ShloMosaic.Lib.Pipeline.Value
import Idealize.ShloMosaic.Lib.ValueIdx

noncomputable section

namespace Cert.Lib

open Idealize.ShloMosaic Idealize.ShloMosaic.ValueIdx

variable {α : Type}

/-- Two [n, c] pieces stacked along the rows, read at row `k` and column `l`. -/
theorem concat_rows_apply (N n c : Nat) (hN : N = n + n) (X Y : (⟨2, ![n, c]⟩ : Shape).Idx → α)
    (h : Shape.Concatenates [(⟨2, ![n, c]⟩ : Shape), ⟨2, ![n, c]⟩] ⟨2, ![N, c]⟩ (0 : Fin 2)) (k : Fin N) (l : Fin c) :
    concatenate ⟨2, ![N, c]⟩ (0 : Fin 2) [⟨⟨2, ![n, c]⟩, X⟩, ⟨⟨2, ![n, c]⟩, Y⟩] h (ix2 k l)
      = if hk : k.val < n then X (ix2 ⟨k.val, hk⟩ l) else Y (ix2 ⟨k.val - n, by have := k.isLt; omega⟩ l) := by
  by_cases hk : k.val < n
  · rw [dif_pos hk]
    exact concatenate_pair_apply_left (0 : Fin 2) X Y h (ix2 k l) rfl (ix2 ⟨k.val, hk⟩ l)
      (fun b => by match b with | ⟨0, _⟩ => rfl | ⟨1, _⟩ => rfl)
  · rw [dif_neg hk]
    exact concatenate_pair_apply_right (0 : Fin 2) X Y h (ix2 k l) rfl rfl (ix2 ⟨k.val - n, by have := k.isLt; omega⟩ l)
      (fun b hb => by match b with | ⟨0, _⟩ => exact absurd rfl hb | ⟨1, _⟩ => rfl)
      (by show k.val - n + n = k.val; omega)

/-- Two [n, c] pieces set side by side along the columns, read at row `k` and column `l`. -/
theorem concat_cols_apply (C n c : Nat) (hC : C = c + c) (X Y : (⟨2, ![n, c]⟩ : Shape).Idx → α)
    (h : Shape.Concatenates [(⟨2, ![n, c]⟩ : Shape), ⟨2, ![n, c]⟩] ⟨2, ![n, C]⟩ (1 : Fin 2)) (k : Fin n) (l : Fin C) :
    concatenate ⟨2, ![n, C]⟩ (1 : Fin 2) [⟨⟨2, ![n, c]⟩, X⟩, ⟨⟨2, ![n, c]⟩, Y⟩] h (ix2 k l)
      = if hl : l.val < c then X (ix2 k ⟨l.val, hl⟩) else Y (ix2 k ⟨l.val - c, by have := l.isLt; omega⟩) := by
  by_cases hl : l.val < c
  · rw [dif_pos hl]
    exact concatenate_pair_apply_left (1 : Fin 2) X Y h (ix2 k l) rfl (ix2 k ⟨l.val, hl⟩)
      (fun b => by match b with | ⟨0, _⟩ => rfl | ⟨1, _⟩ => rfl)
  · rw [dif_neg hl]
    exact concatenate_pair_apply_right (1 : Fin 2) X Y h (ix2 k l) rfl rfl (ix2 k ⟨l.val - c, by have := l.isLt; omega⟩)
      (fun b hb => by match b with | ⟨0, _⟩ => rfl | ⟨1, _⟩ => exact absurd rfl hb)
      (by show l.val - c + c = l.val; omega)

/-- Two length-`n` vectors joined end to end, read at position `k`. -/
theorem concat_vec_apply (N n : Nat) (hN : N = n + n) (X Y : (⟨1, ![n]⟩ : Shape).Idx → α)
    (h : Shape.Concatenates [(⟨1, ![n]⟩ : Shape), ⟨1, ![n]⟩] ⟨1, ![N]⟩ (0 : Fin 1)) (k : Fin N) :
    concatenate ⟨1, ![N]⟩ (0 : Fin 1) [⟨⟨1, ![n]⟩, X⟩, ⟨⟨1, ![n]⟩, Y⟩] h (ix1 k)
      = if hk : k.val < n then X (ix1 ⟨k.val, hk⟩) else Y (ix1 ⟨k.val - n, by have := k.isLt; omega⟩) := by
  by_cases hk : k.val < n
  · rw [dif_pos hk]
    exact concatenate_pair_apply_left (0 : Fin 1) X Y h (ix1 k) rfl (ix1 ⟨k.val, hk⟩)
      (fun b => by match b with | ⟨0, _⟩ => rfl)
  · rw [dif_neg hk]
    exact concatenate_pair_apply_right (0 : Fin 1) X Y h (ix1 k) rfl rfl (ix1 ⟨k.val - n, by have := k.isLt; omega⟩)
      (fun b hb => by match b with | ⟨0, _⟩ => exact absurd rfl hb)
      (by show k.val - n + n = k.val; omega)

end Cert.Lib

end
-- ==== Proof.RefValue.lean ====
/-
  The reference program's result, read one operation at a time, is the mean `GR` of the per-sample losses `lossR`.

  Per sample `b` (a row of seven logits and a label word `t`) the program computes, in this order: the row's largest
  logit (a fold of `max` from −∞, then a `max` with −∞ again, which changes nothing); the shifted exponentials and their
  sum from zero; the quotients `p c = e c / D`; three reads `p[b, column]` through an indexed read whose index table has
  the row number in its first column and a class word in its second. An indexed read takes each index word signed,
  raises nothing itself and clamps into the axis: the row word is the row (a row number is a small non-negative word,
  so the "raise when negative" select in front of it never fires), and the class word, already raised by 7 when negative,
  clamps into 0 … 6, which is the column `Spec.col` names. The second and third reads are kept only where the
  neighbour exists and are zero otherwise; the three are added, ε is added, and the negated logarithm is the sample's
  loss. The losses are summed over every sample from zero and the sum divided by the number of samples.
-/
import proofs.«420492_j72430328479936_2_alg».proof.Proof.Gen.ReferenceIdeal.Read
import proofs.«420492_j72430328479936_2_alg».proof.Proof.Spec
import proofs.«420492_j72430328479936_2_alg».proof.Proof.LibConcatPair
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## An indexed read with both operand axes indexed -/

/-- The start-indices position a result position reads component `l` of its index vector at: its own row, column `l`
    (the index vector lies along axis 1, and the result's one axis is the batch axis that walks the rows). -/
theorem siIdx_pair {N M n : Nat} (d : GatherDims ⟨2, ![N, M]⟩ ⟨2, ![n, 2]⟩ ⟨1, ![n]⟩)
    (hivd : d.indexVectorDim = 1) (p : Fin n) (c : Fin d.startIndexMap.length) (l : Fin 2) (hl : c.val = l.val) :
    d.siIdx (ix1 p) c = ix2 p l := by
  have e : ∀ X : Fin 1, ((ix1 p : (⟨1, ![n]⟩ : Shape).Idx) X).val = p.val := fun X => by
    obtain rfl : X = 0 := Subsingleton.elim _ _
    rfl
  funext b
  match b with
  | ⟨0, _⟩ =>
    unfold GatherDims.siIdx
    rw [dif_neg (by rw [hivd]; exact Nat.zero_ne_one)]
    unfold GatherDims.siCoord
    apply Fin.ext
    simp only [Fin.val_cast]
    exact e _
  | ⟨1, _⟩ =>
    unfold GatherDims.siIdx
    rw [dif_pos (by rw [hivd])]
    apply Fin.ext
    exact hl

/-- With both operand axes collapsed and start-indexed (axis `a` by component `a` of the index vector) and no batching,
    result position `p` reads the operand at the two components of row `p` of the start indices, each read signed and
    clamped into its axis: on each axis the batching and offset coordinates vanish and the slice has size one. -/
theorem gather_pair {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (hN : 0 < N) (hM : 0 < M) :
    Host.gather d x idx (ix1 p)
      = x (ix2 ⟨min (idx (ix2 p (0 : Fin 2))).toInt.toNat (N - 1), by omega⟩
               ⟨min (idx (ix2 p (1 : Fin 2))).toInt.toNat (M - 1), by omega⟩) := by
  unfold Host.gather
  congr 1
  funext a
  apply Fin.ext
  have hb : ∀ a : Fin 2, a ∉ d.operandBatchingDims := fun a => by rw [hob]; exact List.not_mem_nil
  have hc : ∀ a : Fin 2, a ∈ d.collapsedSliceDims := fun a => by rw [hcoll]; fin_cases a <;> simp
  have hk : ∀ a : Fin 2, a ∉ d.sKept := fun a h => ((d.mem_sKept a).1 h).1 (hc a)
  have hm : ∀ a : Fin 2, a ∈ d.startIndexMap := fun a => by rw [hsim]; fin_cases a <;> simp
  have hsl : ∀ a : Fin 2, d.sliceSizes a = 1 := fun a => d.slice_collapsed a (hc a)
  simp only [GatherDims.operandIdx, GatherDims.batchCoord_eq_zero _ _ _ (hb a), GatherDims.offCoord_eq_zero _ _ _ (hk a),
    Nat.add_zero, GatherDims.start, dif_pos (hm a), hsl a]
  match a with
  | ⟨0, _⟩ =>
    rw [siIdx_pair d hivd p _ (0 : Fin 2) (by show List.idxOf (0 : Fin 2) d.startIndexMap = 0; rw [hsim]; simp)]
    rfl
  | ⟨1, _⟩ =>
    rw [siIdx_pair d hivd p _ (1 : Fin 2) (by show List.idxOf (1 : Fin 2) d.startIndexMap = 1; rw [hsim]; simp)]
    rfl

/-! ## Words and folds the stages meet -/

/-- The word −∞ is the least extended real. -/
theorem ninf_eq_bot : Cert.Spec.ninf = (⊥ : EReal) := by
  simp [Cert.Spec.ninf, Ideal.ofBits, Ideal.ieee]

/-- A one-axis `max` reduction of a [4000000 × 7] array along its rows, at sample `b`: the fold of `max` over the seven
    columns of row `b` from the initial element. -/
theorem reduce_max_row (x : (⟨2, ![4000000, 7]⟩ : Shape).Idx → EReal) (init : (⟨0, ![]⟩ : Shape).Idx → EReal)
    (h' : (⟨2, ![4000000, 7]⟩ : Shape).ReducesTo [1] ⟨1, ![4000000]⟩) (hu : 0 < (⟨0, ![]⟩ : Shape).numel) (b : Fin 4000000) :
    Host.reduce (FloatOps.maximumf (F := Ideal) (φ := .f32)) x init h' hu (ix1 b)
      = (Finset.univ : Finset (Fin 7)).fold max (init (Shape.Idx.first hu)) (fun c => x (ix2 b c)) := by
  rw [Host.reduce_eq_fold_single _ x init h' (by decide) hu (ix1 b)]
  refine congrArg (Finset.fold _ _ · _) (funext fun c => congrArg x (funext fun a => Fin.ext ?_))
  match a with
  | ⟨0, _⟩ => rfl
  | ⟨1, _⟩ => rfl

/-- A row number is a small non-negative word: it is not below zero as a signed word … -/
theorem rowword_not_neg (b : Fin 4000000) : IntOp.cmpi .slt (BitVec.ofNat 32 b.val) 0#32 = 0#1 := by
  apply eq_zero_of_ne_one
  intro h
  have hb := b.isLt
  have := (Predicate.slt_iff_toNat (a := BitVec.ofNat 32 b.val) (b := 0#32)
    (by simp [BitVec.toNat_ofNat]; omega) (by decide)).1 h
  simp at this

/-- … so the select that would raise it by the number of rows leaves it alone … -/
theorem rowword_select (b : Fin 4000000) (y : BitVec 32) :
    Scalar.select (IntOp.cmpi .slt (BitVec.ofNat 32 b.val) 0#32) y (BitVec.ofNat 32 b.val) = BitVec.ofNat 32 b.val := by
  rw [rowword_not_neg, select_zero]

/-- … and read signed and clamped to the last row it is the row itself. -/
theorem rowword_clamp (b : Fin 4000000) : min (BitVec.ofNat 32 b.val).toInt.toNat (4000000 - 1) = b.val := by
  have hb := b.isLt
  rw [Predicate.toInt_ofNat_small b.val (by omega)]
  simp only [Int.toNat_natCast]
  omega

/-- A sum over the positions of a vector is the sum over its one coordinate. -/
theorem sum_ix1 {n : Nat} (f : (⟨1, ![n]⟩ : Shape).Idx → EReal) : ∑ j, f j = ∑ b : Fin n, f (ix1 b) := by
  refine Fintype.sum_equiv ⟨fun j => j 0, fun b => ix1 b, fun j => (eq_ix1 j).symm, fun _ => rfl⟩ _ _ fun j => ?_
  exact congrArg f (eq_ix1 j)

/-- Two [4000000 × 1] columns set side by side: column 0 of the table is the first … -/
theorem cols_at0 (X Y : (⟨2, ![4000000, 1]⟩ : Shape).Idx → BitVec 32)
    (h : Shape.Concatenates [(⟨2, ![4000000, 1]⟩ : Shape), ⟨2, ![4000000, 1]⟩] ⟨2, ![4000000, 2]⟩ (1 : Fin 2)) (b : Fin 4000000) :
    concatenate ⟨2, ![4000000, 2]⟩ (1 : Fin 2) [⟨⟨2, ![4000000, 1]⟩, X⟩, ⟨⟨2, ![4000000, 1]⟩, Y⟩] h (ix2 b (0 : Fin 2))
      = X (ix2 b (0 : Fin 1)) := by
  have e := Cert.Lib.concat_cols_apply 2 4000000 1 rfl X Y h b (0 : Fin 2)
  rw [dif_pos (by decide)] at e
  exact e

/-- … and column 1 is the second. -/
theorem cols_at1 (X Y : (⟨2, ![4000000, 1]⟩ : Shape).Idx → BitVec 32)
    (h : Shape.Concatenates [(⟨2, ![4000000, 1]⟩ : Shape), ⟨2, ![4000000, 1]⟩] ⟨2, ![4000000, 2]⟩ (1 : Fin 2)) (b : Fin 4000000) :
    concatenate ⟨2, ![4000000, 2]⟩ (1 : Fin 2) [⟨⟨2, ![4000000, 1]⟩, X⟩, ⟨⟨2, ![4000000, 1]⟩, Y⟩] h (ix2 b (1 : Fin 2))
      = Y (ix2 b (0 : Fin 1)) := by
  have e := Cert.Lib.concat_cols_apply 2 4000000 1 rfl X Y h b (1 : Fin 2)
  rw [dif_neg (by decide)] at e
  exact e

/-- The program's indexed read at sample `b`, when row `b` of its index table holds the row number and the raised class
    word `wrap w`: the operand at row `b`, column `col w`. -/
theorem gather_sample (x : (⟨2, ![4000000, 7]⟩ : Shape).Idx → EReal) (idx : (⟨2, ![4000000, 2]⟩ : Shape).Idx → BitVec 32)
    (b : Fin 4000000) (w : BitVec 32)
    (h0 : idx (ix2 b (0 : Fin 2)) = BitVec.ofNat 32 b.val) (h1 : idx (ix2 b (1 : Fin 2)) = Cert.Spec.wrap w) :
    Host.gather gather_S4000000x7_S4000000x2_S4000000_n_01_n_n_01_1_11 x idx (ix1 b) = x (ix2 b (Cert.Spec.col w)) := by
  rw [gather_pair gather_S4000000x7_S4000000x2_S4000000_n_01_n_n_01_1_11 rfl rfl rfl rfl x idx b (by decide) (by decide)]
  refine congrArg x (funext fun a => Fin.ext ?_)
  match a with
  | ⟨0, _⟩ =>
    show min (idx (ix2 b (0 : Fin 2))).toInt.toNat (4000000 - 1) = b.val
    rw [h0]; exact rowword_clamp b
  | ⟨1, _⟩ =>
    show min (idx (ix2 b (1 : Fin 2))).toInt.toNat (7 - 1) = min (Cert.Spec.wrap w).toInt.toNat 6
    rw [h1]

/-! ## The softmax stages at a sample -/

section Stages

variable (x0 : (⟨S4000000x7, .f32⟩ : BufTy).Contents (Elt Ideal)) (x1 : (⟨S4000000, .i32⟩ : BufTy).Contents (Elt Ideal))

/-- The row maximum, after the `max` with −∞ that changes nothing. -/
theorem v2_at (b : Fin 4000000) :
    val_main_v2 (F := Ideal) x0 (ix1 b) = Cert.Spec.rowMax (Cert.Spec.row x0 b) := by
  rw [val_main_v2_apply, val_main_v1_apply, val_main_cst_0_apply]
  unfold val_main_v0
  rw [reduce_max_row, val_main_cst_apply]
  simp only [Ideal.ofBits_def, Ideal.maximumf_def]
  show max Cert.Spec.ninf (Cert.Spec.rowMax (Cert.Spec.row x0 b)) = _
  rw [ninf_eq_bot]
  exact max_bot_left _

/-- … broadcast along the row. -/
theorem v4_at (b : Fin 4000000) (c : Fin 7) :
    val_main_v4 (F := Ideal) x0 (ix2 b c) = Cert.Spec.rowMax (Cert.Spec.row x0 b) := by
  rw [val_main_v4_apply, val_main_v3_apply]
  have e : idx_main_v3 (idx_main_v4 (ix2 b c)) = ix1 b := by
    funext a; match a with | ⟨0, _⟩ => rfl
  rw [e, v2_at]

/-- The shifted exponential. -/
theorem v6_at (b : Fin 4000000) (c : Fin 7) :
    val_main_v6 (F := Ideal) x0 (ix2 b c) = Cert.Spec.ex (Cert.Spec.row x0 b) c := by
  rw [val_main_v6_apply, val_main_v5_apply, v4_at]
  simp only [Ideal.hostUnary_exp_def, Ideal.subf_def]
  rfl

/-- The row's sum of them, from zero. -/
theorem v7_at (b : Fin 4000000) :
    val_main_v7 (F := Ideal) x0 (ix1 b) = Cert.Spec.den (Cert.Spec.row x0 b) := by
  rw [val_main_v7_apply, val_main_cst_1_apply]
  simp only [Ideal.ofBits_def, Ideal.ofBits_zero_f32, zero_add]
  unfold Cert.Spec.den
  refine Finset.sum_congr rfl fun k _ => ?_
  have e : idx_main_v7 (ix1 b) k = ix2 b k := by
    funext a; match a with | ⟨0, _⟩ => rfl | ⟨1, _⟩ => rfl
  rw [e, v6_at]

/-- … broadcast along the row. -/
theorem v9_at (b : Fin 4000000) (c : Fin 7) :
    val_main_v9 (F := Ideal) x0 (ix2 b c) = Cert.Spec.den (Cert.Spec.row x0 b) := by
  rw [val_main_v9_apply, val_main_v8_apply]
  have e : idx_main_v8 (idx_main_v9 (ix2 b c)) = ix1 b := by
    funext a; match a with | ⟨0, _⟩ => rfl
  rw [e, v7_at]

/-- The softmax probability. -/
theorem v10_at (b : Fin 4000000) (c : Fin 7) :
    val_main_v10 (F := Ideal) x0 (ix2 b c) = Cert.Spec.prob (Cert.Spec.row x0 b) c := by
  rw [val_main_v10_apply, v6_at, v9_at]
  simp only [Ideal.hostDivf_def]
  rfl

/-! ## The label's words at a sample -/

/-- The label, raised by 7 when negative. -/
theorem v21_at (b : Fin 4000000) :
    val_main_v21 (F := Ideal) x1 (ix1 b) = Cert.Spec.wrap (Cert.Spec.lab x1 b) := by
  rw [val_main_v21_apply, val_main_v18_apply, val_main_v20_apply, val_main_v17_apply, val_main_c_3_apply,
    val_main_v19_apply, val_main_c_4_apply]
  rfl

/-- The label less one. -/
theorem v27_at (b : Fin 4000000) :
    val_main_v27 (F := Ideal) x1 (ix1 b) = IntOp.subi (Cert.Spec.lab x1 b) 1#32 := by
  rw [val_main_v27_apply, val_main_v26_apply, val_main_c_5_apply]
  rfl

/-- The label plus one. -/
theorem v29_at (b : Fin 4000000) :
    val_main_v29 (F := Ideal) x1 (ix1 b) = IntOp.addi (Cert.Spec.lab x1 b) 1#32 := by
  rw [val_main_v29_apply, val_main_v28_apply, val_main_c_6_apply]
  rfl

/-- Whether the lower neighbour exists. -/
theorem v31_at (b : Fin 4000000) :
    val_main_v31 (F := Ideal) x1 (ix1 b) = IntOp.cmpi .sge (IntOp.subi (Cert.Spec.lab x1 b) 1#32) 0#32 := by
  rw [val_main_v31_apply, v27_at, val_main_v30_apply, val_main_c_7_apply]

/-- The lower neighbour's class word, raised by 7 when negative. -/
theorem v43_at (b : Fin 4000000) :
    val_main_v43 (F := Ideal) x1 (ix1 b)
      = Cert.Spec.wrap (IntOp.maxsi (IntOp.subi (Cert.Spec.lab x1 b) 1#32) 0#32) := by
  have e : val_main_v33 (F := Ideal) x1 (ix1 b) = IntOp.maxsi (IntOp.subi (Cert.Spec.lab x1 b) 1#32) 0#32 := by
    rw [val_main_v33_apply, v27_at, val_main_v32_apply, val_main_c_8_apply]
  rw [val_main_v43_apply, val_main_v40_apply, val_main_v42_apply, e, val_main_v39_apply, val_main_c_11_apply,
    val_main_v41_apply, val_main_c_12_apply]
  rfl

/-- Whether the upper neighbour exists. -/
theorem v51_at (b : Fin 4000000) :
    val_main_v51 (F := Ideal) x1 (ix1 b) = IntOp.cmpi .slt (IntOp.addi (Cert.Spec.lab x1 b) 1#32) 7#32 := by
  rw [val_main_v51_apply, v29_at, val_main_v50_apply, val_main_c_14_apply]

/-- The upper neighbour's class word, raised by 7 when negative. -/
theorem v63_at (b : Fin 4000000) :
    val_main_v63 (F := Ideal) x1 (ix1 b)
      = Cert.Spec.wrap (IntOp.minsi (IntOp.addi (Cert.Spec.lab x1 b) 1#32) 6#32) := by
  have e : val_main_v53 (F := Ideal) x1 (ix1 b) = IntOp.minsi (IntOp.addi (Cert.Spec.lab x1 b) 1#32) 6#32 := by
    rw [val_main_v53_apply, v29_at, val_main_v52_apply, val_main_c_15_apply]
  rw [val_main_v63_apply, val_main_v60_apply, val_main_v62_apply, e, val_main_v59_apply, val_main_c_18_apply,
    val_main_v61_apply, val_main_c_19_apply]
  rfl

/-! ## The three index tables at a sample -/

/-- The row-number column of the first table: the row's number. -/
theorem v16_at (b : Fin 4000000) : val_main_v16 (F := Ideal) (ix1 b) = BitVec.ofNat 32 b.val := by
  rw [val_main_v16_apply, val_main_v13_apply, val_main_v11_apply, val_main_v12_apply, val_main_c_apply]
  exact rowword_select b _

/-- … of the second … -/
theorem v38_at (b : Fin 4000000) : val_main_v38 (F := Ideal) (ix1 b) = BitVec.ofNat 32 b.val := by
  rw [val_main_v38_apply, val_main_v35_apply, val_main_v11_apply, val_main_v34_apply, val_main_c_9_apply]
  exact rowword_select b _

/-- … and of the third. -/
theorem v58_at (b : Fin 4000000) : val_main_v58 (F := Ideal) (ix1 b) = BitVec.ofNat 32 b.val := by
  rw [val_main_v58_apply, val_main_v55_apply, val_main_v11_apply, val_main_v54_apply, val_main_c_16_apply]
  exact rowword_select b _

/-- The first table's row `b`: the row number, the label's raised word. -/
theorem v24_at0 (b : Fin 4000000) : val_main_v24 (F := Ideal) x1 (ix2 b (0 : Fin 2)) = BitVec.ofNat 32 b.val := by
  unfold val_main_v24
  rw [cols_at0, val_main_v22_apply]
  have e : idx_main_v22 (ix2 b (0 : Fin 1)) = ix1 b := by funext a; match a with | ⟨0, _⟩ => rfl
  rw [e, v16_at]
theorem v24_at1 (b : Fin 4000000) :
    val_main_v24 (F := Ideal) x1 (ix2 b (1 : Fin 2)) = Cert.Spec.wrap (Cert.Spec.lab x1 b) := by
  unfold val_main_v24
  rw [cols_at1, val_main_v23_apply]
  have e : idx_main_v23 (ix2 b (0 : Fin 1)) = ix1 b := by funext a; match a with | ⟨0, _⟩ => rfl
  rw [e, v21_at]

/-- The second table's row `b`: the row number, the lower neighbour's raised word. -/
theorem v46_at0 (b : Fin 4000000) : val_main_v46 (F := Ideal) x1 (ix2 b (0 : Fin 2)) = BitVec.ofNat 32 b.val := by
  unfold val_main_v46
  rw [cols_at0, val_main_v44_apply]
  have e : idx_main_v44 (ix2 b (0 : Fin 1)) = ix1 b := by funext a; match a with | ⟨0, _⟩ => rfl
  rw [e, v38_at]
theorem v46_at1 (b : Fin 4000000) :
    val_main_v46 (F := Ideal) x1 (ix2 b (1 : Fin 2))
      = Cert.Spec.wrap (IntOp.maxsi (IntOp.subi (Cert.Spec.lab x1 b) 1#32) 0#32) := by
  unfold val_main_v46
  rw [cols_at1, val_main_v45_apply]
  have e : idx_main_v45 (ix2 b (0 : Fin 1)) = ix1 b := by funext a; match a with | ⟨0, _⟩ => rfl
  rw [e, v43_at]

/-- The third table's row `b`: the row number, the upper neighbour's raised word. -/
theorem v66_at0 (b : Fin 4000000) : val_main_v66 (F := Ideal) x1 (ix2 b (0 : Fin 2)) = BitVec.ofNat 32 b.val := by
  unfold val_main_v66
  rw [cols_at0, val_main_v64_apply]
  have e : idx_main_v64 (ix2 b (0 : Fin 1)) = ix1 b := by funext a; match a with | ⟨0, _⟩ => rfl
  rw [e, v58_at]
theorem v66_at1 (b : Fin 4000000) :
    val_main_v66 (F := Ideal) x1 (ix2 b (1 : Fin 2))
      = Cert.Spec.wrap (IntOp.minsi (IntOp.addi (Cert.Spec.lab x1 b) 1#32) 6#32) := by
  unfold val_main_v66
  rw [cols_at1, val_main_v65_apply]
  have e : idx_main_v65 (ix2 b (0 : Fin 1)) = ix1 b := by funext a; match a with | ⟨0, _⟩ => rfl
  rw [e, v63_at]

/-! ## The three reads, and the loss, at a sample -/

/-- The label's own probability. -/
theorem v25_at (b : Fin 4000000) :
    val_main_v25 (F := Ideal) x0 x1 (ix1 b)
      = Cert.Spec.prob (Cert.Spec.row x0 b) (Cert.Spec.col (Cert.Spec.lab x1 b)) := by
  unfold val_main_v25
  rw [gather_sample _ _ b (Cert.Spec.lab x1 b) (v24_at0 x1 b) (v24_at1 x1 b), v10_at]

/-- The lower neighbour's. -/
theorem v47_at (b : Fin 4000000) :
    val_main_v47 (F := Ideal) x0 x1 (ix1 b)
      = Cert.Spec.prob (Cert.Spec.row x0 b) (Cert.Spec.col (IntOp.maxsi (IntOp.subi (Cert.Spec.lab x1 b) 1#32) 0#32)) := by
  unfold val_main_v47
  rw [gather_sample _ _ b _ (v46_at0 x1 b) (v46_at1 x1 b), v10_at]

/-- The upper neighbour's. -/
theorem v67_at (b : Fin 4000000) :
    val_main_v67 (F := Ideal) x0 x1 (ix1 b)
      = Cert.Spec.prob (Cert.Spec.row x0 b) (Cert.Spec.col (IntOp.minsi (IntOp.addi (Cert.Spec.lab x1 b) 1#32) 6#32)) := by
  unfold val_main_v67
  rw [gather_sample _ _ b _ (v66_at0 x1 b) (v66_at1 x1 b), v10_at]

/-- The value a dropped neighbour contributes is zero. -/
theorem call0_zero (i : S4000000.Idx) : val_main_call0_v1 (F := Ideal) i = 0 := by
  rw [val_main_call0_v1_apply, val_main_call0_v0_apply, val_main_cst_13_apply]
  simp only [Ideal.ofBits_def, Ideal.ofBits_zero_f32]
theorem call1_zero (i : S4000000.Idx) : val_main_call1_v1 (F := Ideal) i = 0 := by
  rw [val_main_call1_v1_apply, val_main_call1_v0_apply, val_main_cst_20_apply]
  simp only [Ideal.ofBits_def, Ideal.ofBits_zero_f32]

/-- The sample's loss. -/
theorem v73_at (b : Fin 4000000) :
    val_main_v73 (F := Ideal) x0 x1 (ix1 b) = Cert.Spec.lossR (Cert.Spec.row x0 b) (Cert.Spec.lab x1 b) := by
  rw [val_main_v73_apply, val_main_v72_apply, val_main_v71_apply, val_main_v69_apply, val_main_v49_apply,
    val_main_v48_apply, val_main_v68_apply, v25_at, v47_at, v67_at, v31_at, v51_at, call0_zero, call1_zero,
    val_main_v70_apply, val_main_cst_21_apply]
  simp only [Ideal.hostNegf_def, Ideal.negf_def, Ideal.hostUnary_log_def, Ideal.addf_def, Ideal.ofBits_def]
  rfl

/-! ## The mean -/

/-- The reference's result: every sample's loss summed from zero, divided by the number of samples. -/
theorem ref_value :
    Cert.ReferenceIdeal.Read.val_main_v75 (F := Ideal) x0 x1 = fun _ => Cert.Spec.GR x0 x1 := by
  funext i
  rw [val_main_v75_apply, val_main_v74_apply, val_main_cst_22_apply, val_main_cst_23_apply, sum_ix1]
  simp only [Ideal.hostDivf_def, Ideal.ofBits_def, Ideal.ofBits_zero_f32]
  unfold Cert.Spec.GR Cert.Spec.cnt
  simp only [v73_at]

end Stages

end Cert.ReferenceIdeal.RefValue

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Algebra.lean ====
/-
  The two arrangements of the loss agree: per sample, and summed over the batch.

  Per sample. With seven real logits the row's maximum M is real, so every e c = exp (x c − M) is a positive
  real and so is their sum D. Dividing by the nonzero real D is multiplying by 1 / D, and over the reals
  (a + b + c) / D = a / D + b / D + c / D; the coercion into the extended reals carries sums and products of
  reals, so the identity holds there too (it would fail at the infinities, which is why the logits are asked
  to be finite). A label word whose signed value is in 0 … 6 is one of seven words, and for each of them the
  word tests of both arrangements are closed computations: the mask "within one of the label" keeps exactly
  the label's class and its neighbours where they exist, and the three indexed reads of the other arrangement
  are the same classes, the absent neighbour's term being replaced by 0. Both arrangements are therefore
  −log of the same number, 0 − y being −y.

  The batch. The block sums run over 80 000 consecutive samples, 25 blocks to a half, two halves: sample number
  (p · 25 + s) · 80 000 + j is position j of block s of half p. Addition of extended reals is commutative and
  associative, so the sum of all samples is the sum of the halves' sums; adding 0 first changes nothing.
-/
import proofs.«420492_j72430328479936_2_alg».proof.Proof.Spec
import proofs.«420492_j72430328479936_2_alg».proof.Proof.LibPropagate
import Mathlib.Data.EReal.Operations
import Mathlib.Data.Finset.Fold
import Mathlib.Data.Fintype.BigOperators
import Mathlib.Algebra.BigOperators.Fin
import Mathlib.Algebra.Order.BigOperators.Group.Finset
import Mathlib.Analysis.Complex.Exponential
import Mathlib.Tactic.Abel
import Mathlib.Tactic.FinCases

noncomputable section

namespace Cert.Spec

open Idealize.ShloMosaic

/-! ## The label word -/

/-- The word the maximum is folded from is the pattern of −∞. -/
theorem ninf_eq_bot : ninf = ⊥ := by
  simp [ninf, Ideal.ofBits, Ideal.ieee]

/-- A word whose signed value lies in 0 … 6 is the word of that value. -/
theorem word_of_range (t : BitVec 32) (h0 : 0 ≤ t.toInt) (h7 : t.toInt < 7) :
    ∃ n : Fin 7, t = BitVec.ofNat 32 n.val := by
  have hn : t.toInt = t.toNat := by
    rw [BitVec.toInt_eq_toNat_cond] at h0 ⊢
    split_ifs at h0 ⊢ with h
    · rfl
    · have := t.isLt; omega
  refine ⟨⟨t.toNat, by omega⟩, ?_⟩
  simp

/-- The word of a class in 0 … 6 is not negative and not past 6: it reads its own column. -/
theorem col_word : ∀ n : Fin 7, col (BitVec.ofNat 32 n.val) = n := by decide

/-- For the word of label n the mask is set at class c exactly when n − 1 ≤ c ≤ n + 1: forty-nine closed
    computations on words. -/
theorem near_word : ∀ n c : Fin 7,
    near (BitVec.ofNat 32 n.val) c = if n.val ≤ c.val + 1 ∧ c.val ≤ n.val + 1 then 1#1 else 0#1 := by
  decide

/-! ## The window of a label -/

/-- The label's own term and the terms of its two neighbours where they exist. -/
def win (f : Fin 7 → EReal) (n : Fin 7) : EReal :=
  f n + (if 1 ≤ n.val then f ⟨n.val - 1, by omega⟩ else 0)
    + (if n.val + 1 < 7 then f ⟨min (n.val + 1) 6, by omega⟩ else 0)

/-- The test "t − 1 ≥ 0" on the word of label n says 1 ≤ n. -/
theorem lo_test_word : ∀ n : Fin 7,
    IntOp.cmpi .sge (IntOp.subi (BitVec.ofNat 32 n.val) 1#32) 0#32 = if 1 ≤ n.val then 1#1 else 0#1 := by
  decide

/-- The test "t + 1 < 7" on the word of label n says n + 1 < 7. -/
theorem hi_test_word : ∀ n : Fin 7,
    IntOp.cmpi .slt (IntOp.addi (BitVec.ofNat 32 n.val) 1#32) 7#32 = if n.val + 1 < 7 then 1#1 else 0#1 := by
  decide

/-- The column read at max (t − 1) 0 is n − 1, and 0 when n = 0. -/
theorem lo_col_word : ∀ n : Fin 7,
    col (IntOp.maxsi (IntOp.subi (BitVec.ofNat 32 n.val) 1#32) 0#32) = ⟨n.val - 1, by omega⟩ := by
  decide

/-- The column read at min (t + 1) 6 is n + 1, and 6 when n = 6. -/
theorem hi_col_word : ∀ n : Fin 7,
    col (IntOp.minsi (IntOp.addi (BitVec.ofNat 32 n.val) 1#32) 6#32) = ⟨min (n.val + 1) 6, by omega⟩ := by
  decide

/-- The three quotients the second arrangement adds are the window of the quotients. -/
theorem three_terms_eq_win (p : Fin 7 → EReal) (n : Fin 7) :
    (p (col (BitVec.ofNat 32 n.val))
      + Scalar.select (IntOp.cmpi .sge (IntOp.subi (BitVec.ofNat 32 n.val) 1#32) 0#32)
          (p (col (IntOp.maxsi (IntOp.subi (BitVec.ofNat 32 n.val) 1#32) 0#32))) 0)
      + Scalar.select (IntOp.cmpi .slt (IntOp.addi (BitVec.ofNat 32 n.val) 1#32) 7#32)
          (p (col (IntOp.minsi (IntOp.addi (BitVec.ofNat 32 n.val) 1#32) 6#32))) 0
      = win p n := by
  rw [col_word, lo_test_word, hi_test_word, lo_col_word, hi_col_word]
  unfold win Scalar.select
  by_cases h1 : 1 ≤ n.val <;> by_cases h2 : n.val + 1 < 7 <;> simp [h1, h2]

/-- The masked sum over the seven classes is the window of the summands. -/
theorem masked_sum_eq_win (f : Fin 7 → EReal) (n : Fin 7) :
    ∑ c : Fin 7, Scalar.select (near (BitVec.ofNat 32 n.val) c) (f c) 0 = win f n := by
  simp only [near_word, Fin.sum_univ_seven, win, Scalar.select]
  fin_cases n <;> simp <;> abel

/-! ## Finite logits -/

/-- The largest of seven real logits is a real number: it is below ⊤ because ⊥ and every logit are, and
    above ⊥ because the first logit is. -/
theorem rowMax_finite (x : Fin 7 → EReal) (hx : ∀ c, x c ≠ ⊤ ∧ x c ≠ ⊥) :
    rowMax x ≠ ⊤ ∧ rowMax x ≠ ⊥ := by
  constructor
  · apply ne_of_lt
    rw [rowMax, Finset.fold_max_lt]
    exact ⟨by rw [ninf_eq_bot]; exact bot_lt_top, fun c _ => lt_top_iff_ne_top.mpr (hx c).1⟩
  · apply ne_of_gt
    rw [rowMax, Finset.lt_fold_max]
    exact Or.inr ⟨0, Finset.mem_univ _, bot_lt_iff_ne_bot.mpr (hx 0).2⟩

/-- With real logits every shifted exponential is a real number, and their sum is a nonzero real: each is
    the exponential of a difference of two reals, hence positive. -/
theorem ex_den_real (x : Fin 7 → EReal) (hx : ∀ c, x c ≠ ⊤ ∧ x c ≠ ⊥) :
    ∃ (e : Fin 7 → ℝ) (d : ℝ), d ≠ 0 ∧ (∀ c, ex x c = (e c : EReal)) ∧ den x = (d : EReal) := by
  obtain ⟨hm1, hm2⟩ := rowMax_finite x hx
  obtain ⟨m, hm⟩ : ∃ m : ℝ, rowMax x = (m : EReal) :=
    ⟨(rowMax x).toReal, (EReal.coe_toReal hm1 hm2).symm⟩
  have hxr : ∀ c, x c = (((x c).toReal : ℝ) : EReal) := fun c =>
    (EReal.coe_toReal (hx c).1 (hx c).2).symm
  have he : ∀ c, ex x c = ((Real.exp ((x c).toReal - m) : ℝ) : EReal) := fun c => by
    rw [ex, hm, hxr c, ← EReal.coe_sub, Ideal.exp_coe, EReal.toReal_coe]
  refine ⟨fun c => Real.exp ((x c).toReal - m), ∑ c : Fin 7, Real.exp ((x c).toReal - m), ?_, he, ?_⟩
  · exact (Finset.sum_pos (fun c _ => Real.exp_pos _) Finset.univ_nonempty).ne'
  · rw [den]
    simp only [he, Fin.sum_univ_seven, EReal.coe_add]

/-! ## Dividing a window of reals -/

/-- Over the reals a sum divided by a nonzero number is the sum of the quotients; the coercion carries
    this to the extended reals, where division by a nonzero real is the product with its reciprocal. -/
theorem div_add_real (a b d : ℝ) (hd : d ≠ 0) :
    Ideal.div ((a : EReal) + (b : EReal)) (d : EReal)
      = Ideal.div (a : EReal) (d : EReal) + Ideal.div (b : EReal) (d : EReal) := by
  simp only [Ideal.div_coe hd, ← EReal.coe_add, ← EReal.coe_mul, add_mul]

/-- Dividing the window of real terms by a nonzero real divides each term of the window. -/
theorem div_win (e : Fin 7 → ℝ) (d : ℝ) (hd : d ≠ 0) (n : Fin 7) :
    Ideal.div (win (fun c => (e c : EReal)) n) (d : EReal)
      = win (fun c => Ideal.div (e c : EReal) (d : EReal)) n := by
  unfold win
  by_cases h1 : 1 ≤ n.val <;> by_cases h2 : n.val + 1 < 7
  · simp only [h1, h2, if_true]
    rw [← EReal.coe_add, div_add_real _ _ _ hd, EReal.coe_add, div_add_real _ _ _ hd]
  · simp only [h1, h2, if_true, if_false, add_zero]
    rw [div_add_real _ _ _ hd]
  · simp only [h1, h2, if_true, if_false, add_zero]
    rw [div_add_real _ _ _ hd]
  · omega

/-! ## One sample -/

/-- For real logits and a label in 0 … 6 the two arrangements of a sample's loss are one number: both are
    −log of the window of quotients plus ε. -/
theorem lossR_eq_lossK (x : Fin 7 → EReal) (t : BitVec 32) (hx : ∀ c, x c ≠ ⊤ ∧ x c ≠ ⊥)
    (h0 : 0 ≤ t.toInt) (h7 : t.toInt < 7) : lossR x t = lossK x t := by
  obtain ⟨n, rfl⟩ := word_of_range t h0 h7
  obtain ⟨e, d, hd, he, hden⟩ := ex_den_real x hx
  have hex : ex x = fun c => (e c : EReal) := funext he
  have hp : prob x = fun c => Ideal.div (e c : EReal) (d : EReal) := funext fun c => by
    rw [prob, he, hden]
  unfold lossR lossK
  rw [three_terms_eq_win (prob x) n, masked_sum_eq_win (ex x) n, zero_sub, hp, hex, hden,
    div_win e d hd n]

/-! ## The whole batch -/

/-- A sum over the 4 000 000 samples is the sum over two halves of 25 blocks of 80 000 consecutive samples:
    sample number (p · 25 + s) · 80 000 + j is position j of block s of half p, and addition of extended reals
    is commutative and associative, so this only renames the terms. -/
theorem sum_all_eq_halves (F : Fin 4000000 → EReal) :
    ∑ b : Fin 4000000, F b
      = ∑ p : Fin 2, ∑ s : Fin 25, ∑ j : Fin 80000, F (samp ⟨p.val * 25 + s.val, by omega⟩ j) := by
  let g : ℕ → EReal := fun i => if h : i < 4000000 then F ⟨i, h⟩ else 0
  let G : ℕ → EReal := fun k => ∑ j : Fin 80000, g (k * 80000 + j.val)
  have h1 : ∑ b : Fin 4000000, F b = ∑ b : Fin (50 * 80000), g b.val := by
    show _ = ∑ b : Fin 4000000, g b.val
    refine Fintype.sum_congr _ _ fun b => ?_
    simp only [g, dif_pos b.isLt]
  have h2 : ∑ k : Fin 50, G k.val = ∑ b : Fin (50 * 80000), g b.val :=
    Cert.Lib.Propagate.sum_blocks 50 80000 g
  have h3 : ∑ p : Fin 2, ∑ s : Fin 25, G (p.val * 25 + s.val) = ∑ k : Fin (2 * 25), G k.val :=
    Cert.Lib.Propagate.sum_blocks 2 25 G
  have h4 : ∑ k : Fin (2 * 25), G k.val = ∑ k : Fin 50, G k.val := rfl
  rw [h1, ← h2, ← h4, ← h3]
  refine Fintype.sum_congr _ _ fun p => Fintype.sum_congr _ _ fun s => Fintype.sum_congr _ _ fun j => ?_
  have hlt : (p.val * 25 + s.val) * 80000 + j.val < 4000000 := by omega
  simp only [g, dif_pos hlt, samp]

/-- For real logits and labels in 0 … 6 the two totals agree: the summands agree sample by sample, adding 0
    first changes nothing, and the sum over all samples regroups into the two halves of 25 blocks. -/
theorem GR_eq_GK (x : SX.Idx → EReal) (t : ST.Idx → BitVec 32) (hx : ∀ i, x i ≠ ⊤ ∧ x i ≠ ⊥)
    (ht : ∀ b, 0 ≤ (t b).toInt ∧ (t b).toInt < 7) : GR x t = GK x t := by
  have hR : ∀ b : Fin 4000000, lossR (row x b) (lab t b) = lossK (row x b) (lab t b) := fun b =>
    lossR_eq_lossK _ _ (fun c => hx (ValueIdx.ix2 b c)) (ht (ValueIdx.ix1 b)).1 (ht (ValueIdx.ix1 b)).2
  unfold GR GK
  rw [zero_add, Fintype.sum_congr _ _ hR,
    sum_all_eq_halves (fun b => lossK (row x b) (lab t b)), Fin.sum_univ_two]
  rfl

end Cert.Spec

end
-- ==== Proof.PreDecode.lean ====
/-
  What the printed precondition says of the two inputs.

  The printed function is one bit: the conjunction of three "for all" tests, each an and-reduction from
  true over a whole array of bits. The first array holds, per logit, the comparison |x i| < +∞ (the absolute
  value is max (x i) (−x i) on the extended reals and the constant 0x7F800000 is +∞); the second and third hold,
  per label, the signed comparisons t b ≥ 0 and t b < 7. If the bit is 1, every bit of every array is 1, so
  every logit is neither +∞ nor −∞ and every label, read signed, lies in 0 … 6.
-/
import proofs.«420492_j72430328479936_2_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic
open Cert.Pre_finite_inputs

/-- The scalar shape has exactly one index. -/
instance : Subsingleton S_.Idx := ⟨fun a b => funext fun d => d.elim0⟩

/-- The word 0x7F800000 is +∞: exponent field all ones, fraction zero, sign clear. -/
theorem top_bits : Ideal.ofBits .f32 0x7F800000#32 = (⊤ : EReal) := by simp [Ideal.ofBits, Ideal.ieee]

/-- The ordered "less than" comparison gives the bit 1 exactly when the order relation holds. -/
theorem cmp_olt_eq_one (a b : EReal) : Ideal.cmp .olt a b = 1#1 ↔ a < b := by
  unfold Ideal.cmp
  by_cases h : a < b <;> simp [h]

/-- If the larger of a and −a is below +∞ then a is neither infinity: a = +∞ makes a itself +∞,
    and a = −∞ makes −a so. -/
theorem finite_of_abs_lt_top (a : EReal) (h : max a (-a) < ⊤) : a ≠ ⊤ ∧ a ≠ ⊥ := by
  rw [max_lt_iff] at h
  refine ⟨ne_of_lt h.1, ?_⟩
  rintro rfl
  simp at h

theorem of_pre [Facts] (x : FVec Ideal S4000000x7 .f32) (t : IVec S4000000 32)
    (h : fn (F := Ideal) x t = fun _ => 1#1) :
    (∀ i, x i ≠ ⊤ ∧ x i ≠ ⊥) ∧ (∀ b, 0 ≤ (t b).toInt ∧ (t b).toInt < 7) := by
  -- the one word of the result, opened into its three reductions
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun b => ⟨?_, ?_⟩⟩
  · -- bit i of the first array: max (x i) (−x i) < the broadcast constant, which is +∞
    have e := Host.reduce_andi_all _ _ _ _ _ h1 i
    have e' : Ideal.cmp .olt (max (x i) (-(x i))) (Ideal.ofBits .f32 0x7F800000#32) = 1#1 := by
      rw [← e]
      show _ = FloatOps.cmpf .olt (FloatOps.hostAbsf (x i)) _
      rw [StableHlo.Predicate.bcast_scalar _ Facts.h_S_]
      rfl
    rw [top_bits, cmp_olt_eq_one] at e'
    exact finite_of_abs_lt_top _ e'
  · -- bit b of the second array: 0 ≤ t b, signed
    have e := Host.reduce_andi_all _ _ _ _ _ h2 b
    have e' : IntOp.cmpi .sge (t b) 0#32 = 1#1 := by
      rw [← e]
      show _ = IntOp.cmpi .sge (t b) _
      rw [StableHlo.Predicate.bcast_scalar _ Facts.h_S_]
      rfl
    simpa using IntOp.cmpi_sge.1 e'
  · -- bit b of the third array: t b < 7, signed
    have e := Host.reduce_andi_all _ _ _ _ _ h3 b
    have e' : IntOp.cmpi .slt (t b) 7#32 = 1#1 := by
      rw [← e]
      show _ = IntOp.cmpi .slt (t b) _
      rw [StableHlo.Predicate.bcast_scalar _ Facts.h_S_]
      rfl
    simpa using IntOp.cmpi_slt.1 e'

end Cert.PreDecode

end
-- ==== Proof.lean ====
/-
  The kernel and the reference compute the same mean loss.

  Per sample (seven logits, one label) the loss is −log of the softmax mass on the classes within one of the label, plus ε;
  the result is the mean over the 4 000 000 samples. The kernel sums the shifted exponentials of those classes and divides
  once; it adds the losses 80 000 samples at a time into one entry of a carried block, 25 blocks for each half of the
  batch, and the host adds the two halves and divides by the count (`Spec.GK`). The reference divides first, reads the
  label's quotient and its two neighbours' where they exist, and sums all samples at once (`Spec.GR`).

  The statement's precondition asks the logits to be finite and the labels to lie in 0 … 6. Both are needed: at an
  infinite logit the quotient's distributivity fails, and at a label outside 0 … 6 the reference's indexed read wraps or
  clamps the label to a class the kernel's window test does not select. Under it `GR = GK` (Proof/Algebra.lean): each
  sample's two arrangements are one real number, and a sum of extended reals may be regrouped freely.

  The three runs: the kernel's at the word level and at the extended reals terminate with the arguments unchanged (the
  generated frame); the kernel's result at the extended reals is `GK` of the arguments (Proof/KFinal.lean, over
  KPiece, KPay, KBlock, KAcc); the reference's is `GR` (Proof/RefValue.lean over the generated run). The idealization
  rewrote nothing, so the preservation claim is empty.
-/
import proofs.«420492_j72430328479936_2_alg».proof.Defs
import proofs.«420492_j72430328479936_2_alg».proof.Proof.Gen.Kernel
import proofs.«420492_j72430328479936_2_alg».proof.Proof.Gen.Kernel.Skeleton
import proofs.«420492_j72430328479936_2_alg».proof.Proof.Gen.Kernel.Launch
import proofs.«420492_j72430328479936_2_alg».proof.Proof.Gen.Kernel.Points
import proofs.«420492_j72430328479936_2_alg».proof.Proof.Gen.Kernel.Frame
import proofs.«420492_j72430328479936_2_alg».proof.Proof.Gen.KernelIdeal
import proofs.«420492_j72430328479936_2_alg».proof.Proof.Gen.KernelIdeal.Skeleton
import proofs.«420492_j72430328479936_2_alg».proof.Proof.Gen.KernelIdeal.Launch
import proofs.«420492_j72430328479936_2_alg».proof.Proof.Gen.KernelIdeal.Points
import proofs.«420492_j72430328479936_2_alg».proof.Proof.Gen.KernelIdeal.Frame
import proofs.«420492_j72430328479936_2_alg».proof.Proof.Gen.ReferenceIdeal
import proofs.«420492_j72430328479936_2_alg».proof.Proof.Gen.ReferenceIdeal.Run
import proofs.«420492_j72430328479936_2_alg».proof.Proof.Gen.ReferenceIdeal.Read
import proofs.«420492_j72430328479936_2_alg».proof.Proof.Gen.Pre_finite_inputs
import proofs.«420492_j72430328479936_2_alg».proof.Proof.KFinal
import proofs.«420492_j72430328479936_2_alg».proof.Proof.RefValue
import proofs.«420492_j72430328479936_2_alg».proof.Proof.Algebra
import proofs.«420492_j72430328479936_2_alg».proof.Proof.PreDecode
import Idealize.ShloMosaic.Adequacy
import Idealize.ShloMosaic.Init

noncomputable section

namespace Cert.Proof

open Idealize.ShloMosaic Idealize.SL.Sem

/-- The word-level kernel terminates with its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends at `GK` of its arguments, the reference at `GR` of arguments that agree, and under the
    precondition (finite logits, labels in 0 … 6) the two are one extended real. -/
theorem algebraic : Cert.algebraic_KernelIdeal_ReferenceIdeal := by
  intro m ρ m' ρ' hpre hagree
  refine ⟨fun c _ => Cert.Spec.GK (Cert.KernelIdeal.KValue.argX m c) (Cert.KernelIdeal.KValue.argT m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.ReferenceIdeal.RefValue.ref_value, (hagree c).1, (hagree c).2]
  funext _
  obtain ⟨hx, ht⟩ := Cert.PreDecode.of_pre _ _ (hpre c)
  exact Cert.Spec.GR_eq_GK _ _ hx ht

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
